-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x768 : Shape := ⟨3, ![2, 4096, 768]⟩
abbrev S768x768 : Shape := ⟨2, ![768, 768]⟩
abbrev S_ : Shape := ⟨0, ![]⟩

class Facts : Prop where
  bcast_S_S2x4096x768 : S_.BroadcastsInDim S2x4096x768 (![] : Fin 0 → Fin S2x4096x768.rank)
  reducesTo_S2x4096x768_S_d0_1_2 : S2x4096x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_arg4 : FVec F S768x768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  main_v23

def fn {F : FTy → Type} [FloatOps F] (main_arg0 : FVec F S2x4096x768 .f32) (main_arg1 : FVec F S768x768 .f32) (main_arg2 : FVec F S768x768 .f32) (main_arg3 : FVec F S768x768 .f32) (main_arg4 : FVec F S768x768 .f32) : IVec S_ 1 :=
  let main_v0 : FVec F S2x4096x768 .f32 := Host.absf main_arg0
  let main_cst : FVec F S_ .f32 := constant S_ .f32 0x7F800000#32
  let main_v1 : FVec F S2x4096x768 .f32 := broadcastInDim S2x4096x768 ![] bcast_S_S2x4096x768 main_cst
  let main_v2 : IVec S2x4096x768 1 := cmpf .olt main_v0 main_v1
  let main_c : IVec S_ 1 := constantI S_ 1 1#1
  let main_v3 : IVec S_ 1 := (fun x v => Host.reduce IntOp.andi x v reducesTo_S2x4096x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S2x4096x768 : Shape := ⟨3, ![2, 4096, 768]⟩
abbrev S768x768 : Shape := ⟨2, ![768, 768]⟩
abbrev S1x1024x768 : Shape := ⟨3, ![1, 1024, 768]⟩
abbrev S1024x768 : Shape := ⟨2, ![1024, 768]⟩
abbrev S1x512x768 : Shape := ⟨3, ![1, 512, 768]⟩
abbrev S512x768 : Shape := ⟨2, ![512, 768]⟩
abbrev S1024x512 : Shape := ⟨2, ![1024, 512]⟩

abbrev nBuf : Space → Nat
  | .hbm => 17
  | .vmem => 21
  | .smem => 0
  | _ => 0

abbrev bufTy : (tb : Table) → Fin (tcTables nBuf tb) → BufTy
  | .hbm, ⟨0, _⟩ => ⟨S2x4096x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S768x768, .f32⟩
  | .hbm, ⟨6, _⟩ => ⟨S768x768, .bf16⟩
  | .hbm, ⟨7, _⟩ => ⟨S768x768, .f32⟩
  | .hbm, ⟨8, _⟩ => ⟨S768x768, .bf16⟩
  | .hbm, ⟨9, _⟩ => ⟨S768x768, .f32⟩
  | .hbm, ⟨10, _⟩ => ⟨S768x768, .bf16⟩
  | .hbm, ⟨11, _⟩ => ⟨S768x768, .f32⟩
  | .hbm, ⟨12, _⟩ => ⟨S768x768, .bf16⟩
  | .hbm, ⟨13, _⟩ => ⟨S2x4096x768, .bf16⟩
  | .hbm, ⟨14, _⟩ => ⟨S2x4096x768, .bf16⟩
  | .hbm, ⟨15, _⟩ => ⟨S2x4096x768, .bf16⟩
  | .hbm, ⟨16, _⟩ => ⟨S2x4096x768, .f32⟩
  | .local _ .vmem, ⟨0, _⟩ => ⟨S1x1024x768, .f32⟩
  | .local _ .vmem, ⟨1, _⟩ => ⟨S1x1024x768, .f32⟩
  | .local _ .vmem, ⟨2, _⟩ => ⟨S768x768, .bf16⟩
  | .local _ .vmem, ⟨3, _⟩ => ⟨S768x768, .bf16⟩
  | .local _ .vmem, ⟨4, _⟩ => ⟨S768x768, .bf16⟩
  | .local _ .vmem, ⟨5, _⟩ => ⟨S1x1024x768, .bf16⟩
  | .local _ .vmem, ⟨6, _⟩ => ⟨S1x1024x768, .bf16⟩
  | .local _ .vmem, ⟨7, _⟩ => ⟨S1x1024x768, .bf16⟩
  | .local _ .vmem, ⟨8, _⟩ => ⟨S1x1024x768, .bf16⟩
  | .local _ .vmem, ⟨9, _⟩ => ⟨S1x1024x768, .bf16⟩
  | .local _ .vmem, ⟨10, _⟩ => ⟨S1x1024x768, .bf16⟩
  | .local _ .vmem, ⟨11, _⟩ => ⟨S1x1024x768, .bf16⟩
  | .local _ .vmem, ⟨12, _⟩ => ⟨S1x1024x768, .bf16⟩
  | .local _ .vmem, ⟨13, _⟩ => ⟨S1x512x768, .bf16⟩
  | .local _ .vmem, ⟨14, _⟩ => ⟨S1x512x768, .bf16⟩
  | .local _ .vmem, ⟨15, _⟩ => ⟨S1x512x768, .bf16⟩
  | .local _ .vmem, ⟨16, _⟩ => ⟨S1x512x768, .bf16⟩
  | .local _ .vmem, ⟨17, _⟩ => ⟨S768x768, .bf16⟩
  | .local _ .vmem, ⟨18, _⟩ => ⟨S1x1024x768, .f32⟩
  | .local _ .vmem, ⟨19, _⟩ => ⟨S1x1024x768, .f32⟩
  | .local _ .vmem, ⟨20, _⟩ => ⟨S1024x768, .f32⟩
  | _, _ => ⟨S2x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![2, 4, 8], ![false, false, false]⟩

def k1_cond2 (i : grid1.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_15 : BitVec 32 := 0#32
  let v23 : BitVec 1 := Scalar.cmpi .ne v22 c0_i32_15
  v23

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S768x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x1024x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  transposes_S768x768_S768x768_1_0 : S768x768.Transposes [1, 0] S768x768
  bitsLt_bf16_f32 : FTy.bits .bf16 < FTy.bits .f32
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  shapeCasts_S1024x768_S1x1024x768 : S1024x768.ShapeCasts S1x1024x768
  packedbf16_S1x1024x768_S1x1024x768_0_0_0 : (Rect.unit (s := S1x1024x768) ![0, 0, 0] S1x1024x768.size inb_S1x1024x768_S1x1024x768_0_0_0).PackedRows (EltTy.packing .bf16)
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  dot_S1024x768_S768x768_S1024x768_1_0_0_1_n_n_wf : DotDims.WF S1024x768 S768x768 S1024x768 [1] [0] [0] [1] [] []
  dot_S1024x768_S512x768_S1024x512_1_1_0_0_n_n_wf : DotDims.WF S1024x768 S512x768 S1024x512 [1] [1] [0] [0] [] []
  dot_S1024x512_S512x768_S1024x768_1_0_0_1_n_n_wf : DotDims.WF S1024x512 S512x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S2x4096x768.size a
  hwx0_0 : ∀ i : grid0.Coords, EltTy.bits .f32 = 32 ∨ (Rect.block (s := S2x4096x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x768.size a ≤ S2x4096x768.size a
  hwx0_4 : ∀ i : grid0.Coords, EltTy.bits .bf16 = 32 ∨ (Rect.block (s := S2x4096x768) S1x1024x768.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x768.size a ≤ S2x4096x768.size a
  hwx0_5 : ∀ i : grid0.Coords, EltTy.bits .bf16 = 32 ∨ (Rect.block (s := S2x4096x768) S1x1024x768.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x768.size a ≤ S2x4096x768.size a
  hwx0_6 : ∀ i : grid0.Coords, EltTy.bits .bf16 = 32 ∨ (Rect.block (s := S2x4096x768) S1x1024x768.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x768.size a ≤ S2x4096x768.size a
  hwx1_0 : ∀ i : grid1.Coords, EltTy.bits .bf16 = 32 ∨ (Rect.block (s := S2x4096x768) S1x1024x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x768.size a ≤ S2x4096x768.size a
  hwx1_1 : ∀ i : grid1.Coords, EltTy.bits .bf16 = 32 ∨ (Rect.block (s := S2x4096x768) S1x512x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x768.size a ≤ S2x4096x768.size a
  hwx1_2 : ∀ i : grid1.Coords, EltTy.bits .bf16 = 32 ∨ (Rect.block (s := S2x4096x768) S1x512x768.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x768.size a ≤ S768x768.size a
  hwx1_3 : ∀ i : grid1.Coords, EltTy.bits .bf16 = 32 ∨ (Rect.block (s := S768x768) S768x768.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x768.size a ≤ S2x4096x768.size a
  hwx1_4 : ∀ i : grid1.Coords, EltTy.bits .f32 = 32 ∨ (Rect.block (s := S2x4096x768) S1x1024x768.size (cc1_transform_4 i) (hinb1_4 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x768_S512x768_S1024x512_1_1_0_0_n_n : DotDims S1024x768 S512x768 S1024x512 where
  lhsContracting := [1]
  rhsContracting := [1]
  lhsNonContracting := [0]
  rhsNonContracting := [0]
  lhsBatch := []
  rhsBatch := []
  wf := dot_S1024x768_S512x768_S1024x512_1_1_0_0_n_n_wf
def dot_S1024x512_S512x768_S1024x768_1_0_0_1_n_n : DotDims S1024x512 S512x768 S1024x768 where
  lhsContracting := [1]
  rhsContracting := [0]
  lhsNonContracting := [0]
  rhsNonContracting := [1]
  lhsBatch := []
  rhsBatch := []
  wf := dot_S1024x512_S512x768_S1024x768_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S1x1024x768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1x1024x768.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_2) S1x1024x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8_0) S1x1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S1x512x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S1x512x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S768x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x1024x768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S2x4096x768 : Shape := ⟨3, ![2, 4096, 768]⟩
abbrev S768x768 : Shape := ⟨2, ![768, 768]⟩
abbrev S_ : Shape := ⟨0, ![]⟩
abbrev S2x4096x4096 : Shape := ⟨3, ![2, 4096, 4096]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S2x4096x768, .f32⟩
  | .hbm, ⟨6, _⟩ => ⟨S_, .f32⟩
  | .hbm, ⟨7, _⟩ => ⟨S2x4096x768, .f32⟩
  | .hbm, ⟨8, _⟩ => ⟨S2x4096x768, .f32⟩
  | .hbm, ⟨9, _⟩ => ⟨S2x4096x768, .f32⟩
  | .hbm, ⟨10, _⟩ => ⟨S_, .f32⟩
  | .hbm, ⟨11, _⟩ => ⟨S2x4096x768, .f32⟩
  | .hbm, ⟨12, _⟩ => ⟨S2x4096x768, .f32⟩
  | .hbm, ⟨13, _⟩ => ⟨S2x4096x768, .f32⟩
  | .hbm, ⟨14, _⟩ => ⟨S2x4096x4096, .f32⟩
  | .hbm, ⟨15, _⟩ => ⟨S_, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S2x4096x4096, .f32⟩
  | .hbm, ⟨20, _⟩ => ⟨S2x4096x768, .f32⟩
  | .hbm, ⟨21, _⟩ => ⟨S2x4096x768, .f32⟩
  | .hbm, ⟨22, _⟩ => ⟨S_, .f32⟩
  | .hbm, ⟨23, _⟩ => ⟨S2x4096x768, .f32⟩
  | .hbm, ⟨24, _⟩ => ⟨S2x4096x768, .f32⟩
  | _, _ => ⟨S2x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S2x4096x768 : S_.BroadcastsInDim S2x4096x768 (![] : Fin 0 → Fin S2x4096x768.rank)
  bcast_S_S2x4096x4096 : S_.BroadcastsInDim S2x4096x4096 (![] : Fin 0 → Fin S2x4096x4096.rank)
  dot_S2x4096x768_S768x768_S2x4096x768_2_1_01_0_n_n_wf : DotDims.WF S2x4096x768 S768x768 S2x4096x768 [2] [1] [0, 1] [0] [] []
  dot_S2x4096x768_S2x4096x768_S2x4096x4096_2_2_1_1_0_0_wf : DotDims.WF S2x4096x768 S2x4096x768 S2x4096x4096 [2] [2] [1] [1] [0] [0]
  dot_S2x4096x4096_S2x4096x768_S2x4096x768_2_1_1_2_0_0_wf : DotDims.WF S2x4096x4096 S2x4096x768 S2x4096x768 [2] [1] [1] [2] [0] [0]

variable [Facts₀]

def dot_S2x4096x768_S768x768_S2x4096x768_2_1_01_0_n_n : DotDims S2x4096x768 S768x768 S2x4096x768 where
  lhsContracting := [2]
  rhsContracting := [1]
  lhsNonContracting := [0, 1]
  rhsNonContracting := [0]
  lhsBatch := []
  rhsBatch := []
  wf := dot_S2x4096x768_S768x768_S2x4096x768_2_1_01_0_n_n_wf
def dot_S2x4096x768_S2x4096x768_S2x4096x4096_2_2_1_1_0_0 : DotDims S2x4096x768 S2x4096x768 S2x4096x4096 where
  lhsContracting := [2]
  rhsContracting := [2]
  lhsNonContracting := [1]
  rhsNonContracting := [1]
  lhsBatch := [0]
  rhsBatch := [0]
  wf := dot_S2x4096x768_S2x4096x768_S2x4096x4096_2_2_1_1_0_0_wf
def dot_S2x4096x4096_S2x4096x768_S2x4096x768_2_1_1_2_0_0 : DotDims S2x4096x4096 S2x4096x768 S2x4096x768 where
  lhsContracting := [2]
  rhsContracting := [1]
  lhsNonContracting := [1]
  rhsNonContracting := [2]
  lhsBatch := [0]
  rhsBatch := [0]
  wf := dot_S2x4096x4096_S2x4096x768_S2x4096x768_2_1_1_2_0_0_wf

class Facts : Prop extends Facts₀ where

variable [Facts]
-- ==== Proof.K.Body0.lean ====
import proofs.«120198_j7679401525929_1_alg».proof.Proof.Gen.Kernel.Launch
import proofs.«120198_j7679401525929_1_alg».proof.Proof.Gen.Kernel.Skeleton
import proofs.«120198_j7679401525929_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the three projections

Every point of the 2 by 4 grid takes one block of 1024 rows of the input and the three transposed weight matrices
whole, and stores three blocks: the rows times each weight matrix, the first two scaled by the literal one tenth.
Nothing is carried between points. -/

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched its block index has not moved, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem hz2 : (![0, 0] : Fin 2 → ℕ) = fun _ => 0 := by funext a; fin_cases a <;> rfl
theorem hz3 : (![0, 0, 0] : Fin 3 → ℕ) = fun _ => 0 := by funext a; fin_cases a <;> rfl

set_option maxHeartbeats 1000000 in
/-- The body on whole staging buffers: the inputs stay, each output buffer, whatever it held, ends at its projection
    of the input block. -/
theorem sound_kernel0 (c : Dev nD) (E : Set ℕ) (i : grid0.Coords)
    (arg2 : Memref sig .tc .vmem S1x1024x768 .f32) (harg2 : arg2.IsWhole) (arg3 : Memref sig .tc .vmem S768x768 .bf16) (harg3 : arg3.IsWhole)
    (arg4 : Memref sig .tc .vmem S768x768 .bf16) (harg4 : arg4.IsWhole) (arg5 : Memref sig .tc .vmem S768x768 .bf16) (harg5 : arg5.IsWhole)
    (arg6 : Memref sig .tc .vmem S1x1024x768 .bf16) (harg6 : arg6.IsWhole) (arg7 : Memref sig .tc .vmem S1x1024x768 .bf16) (harg7 : arg7.IsWhole)
    (arg8 : Memref sig .tc .vmem S1x1024x768 .bf16) (harg8 : arg8.IsWhole)
    (x0 : Vec F S1x1024x768 .f32) (x1 x2 x3 : Vec F S768x768 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3
            ∗ owns (c : Thread nD τ) arg6 fullShare (k0_pay2 x0 x1) ∗ owns (c : Thread nD τ) arg7 fullShare (k0_pay3 x0 x2)
            ∗ owns (c : Thread nD τ) arg8 fullShare (k0_pay4 x0 x3)) -∗ K ⟨⟩))
      ⊢ wp frame (wpE (defs₀ (F := F)) Variants.none c none) E (cc0__qkv_kernel i arg2 harg2 arg3 harg3 arg4 harg4 arg5 harg5 arg6 harg6 arg7 harg7 arg8 harg8) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_singleton_self _, View.mem_set_unit_zero hz3 inb_S1x1024x768_S1x1024x768_0_0_0 y⟩), View.canon_unit_zero hz3]
    simp only [View.readAt_eq_ld, View.ld_unit_zero (S := S1x1024x768) hz3, View.ld_unit_zero (S := S768x768) hz2]
  isplitl [H5]
  · iexists _; isplitr
    swap; · iexact H5
    ipureintro
    rw [View.read_writes_eq_canon _ _ _ (fun y => ⟨_, List.mem_singleton_self _, View.mem_set_unit_zero hz3 inb_S1x1024x768_S1x1024x768_0_0_0 y⟩), View.canon_unit_zero hz3]
    simp only [View.readAt_eq_ld, View.ld_unit_zero (S := S1x1024x768) hz3, View.ld_unit_zero (S := S768x768) hz2]
  iexists _; isplitr
  swap; · iexact H6
  ipureintro
  rw [View.read_writes_eq_canon _ _ _ (fun y => ⟨_, List.mem_singleton_self _, View.mem_set_unit_zero hz3 inb_S1x1024x768_S1x1024x768_0_0_0 y⟩), View.canon_unit_zero hz3]
  simp only [View.readAt_eq_ld, View.ld_unit_zero (S := S1x1024x768) hz3, View.ld_unit_zero (S := S768x768) hz2]

/-! ## The proof data -/

/-- Region 0's proof data on core c: the arrays as the region finds them; after the body each input buffer at its
    block and each output buffer at its projection of the input block; the invariant only the scoped buffers the
    region does not stage and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (iblk0 V c 0 t) (iblk0 V c 1 t)
    | ⟨5, _⟩ => k0_pay3 (iblk0 V c 0 t) (iblk0 V c 2 t)
    | ⟨6, _⟩ => k0_pay4 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay2 (iblk0 V c 0 t) (iblk0 V c 1 t) := by dsimp only [dat0]
theorem after0_5 (c : Dev nD) (t : Fin cfg0.N) : (dat0 V c).after 5 t = k0_pay3 (iblk0 V c 0 t) (iblk0 V c 2 t) := by dsimp only [dat0]
theorem after0_6 (c : Dev nD) (t : Fin cfg0.N) : (dat0 V c).after 6 t = k0_pay4 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Body1.lean ====
import proofs.«120198_j7679401525929_1_alg».proof.Proof.Gen.Kernel.Launch
import proofs.«120198_j7679401525929_1_alg».proof.Proof.Gen.Kernel.Skeleton
import proofs.«120198_j7679401525929_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: polynomial attention and the output projection

The grid is 2 batches by 4 query blocks by 8 key blocks, the key block innermost. A scratch accumulator is carried
along each row of 8 key blocks: zeroed at the first, added to at every point, projected and stored at the last. -/

theorem hzr2 : (![0, 0] : Fin 2 → ℕ) = fun _ => 0 := by funext a; fin_cases a <;> rfl
theorem hzr3 : (![0, 0, 0] : Fin 3 → ℕ) = fun _ => 0 := by funext a; fin_cases a <;> rfl

/-! ## The attention body, case by case

The body's two conditionals read only the grid's third coordinate, the key block's number: the first (at key
block 0) zeroes the accumulator scratch, the second (at key block 7) projects the accumulator through the output
weights and stores the output block. Between them the body always adds the point's contribution, the polynomial
of the scaled scores times the value block, to the scratch. -/

/-- The first conditional's test: the point is the first of its row of key blocks. -/
abbrev cond1_0 (i : grid1.Coords) : Prop := (Scalar.cmpi .ne (Scalar.extui (Scalar.cmpi .eq (BitVec.ofNat 32 (i 2).val) 0#32)) 0#32) = 1#1
/-- The second conditional's test: the point is the last of its row of key blocks. -/
abbrev cond1_1 (i : grid1.Coords) : Prop := k1_cond2 i = 1#1

set_option maxHeartbeats 1000000 in
/-- A first point of a row: the scratch, whatever it held, ends at zero plus the point's contribution; the output
    buffer is not touched. -/
theorem sound_kernel1_A (c : Dev nD) (E : Set ℕ) (i : grid1.Coords)
    (arg3 : Memref sig .tc .vmem S1x1024x768 .bf16) (harg3 : arg3.IsWhole) (arg4 : Memref sig .tc .vmem S1x512x768 .bf16) (harg4 : arg4.IsWhole)
    (arg5 : Memref sig .tc .vmem S1x512x768 .bf16) (harg5 : arg5.IsWhole) (arg6 : Memref sig .tc .vmem S768x768 .bf16) (harg6 : arg6.IsWhole)
    (arg7 : Memref sig .tc .vmem S1x1024x768 .f32) (harg7 : arg7.IsWhole) (arg8 : Memref sig .tc .vmem S1024x768 .f32) (harg8 : arg8.IsWhole)
    (hc0 : cond1_0 i) (hc1 : ¬ cond1_1 i)
    (x0 : Vec F S1x1024x768 .bf16) (x1 x2 : Vec F S1x512x768 .bf16) (x3 : Vec F S768x768 .bf16) (xo : Vec F S1x1024x768 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo ∗ (∃ d, owns (c : Thread nD τ) arg8 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo
            ∗ owns (c : Thread nD τ) arg8 fullShare (k1_pay2 x0 x1 x2 (k1_pay1 (F := F)))) -∗ K ⟨⟩))
      ⊢ wp frame (wpE (defs₀ (F := F)) Variants.none c none) E (cc1__attn_kernel i arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  rw [View.read_writes_eq_canon _ _ _ (fun y => ⟨_, List.mem_cons_self, View.mem_set_unit_zero hzr2 inb_S1024x768_S1024x768_0_0 y⟩), View.canon_cons_unit_zero hzr2]
  simp only [View.readAt_eq_ld, View.ld_unit_zero (S := S1x1024x768) hzr3, View.ld_unit_zero (S := S1x512x768) hzr3, View.ld_unit_zero (S := S1024x768) hzr2, View.ld_unit_zero (S := S768x768) hzr2, View.readCov_unit_zero (S := S1024x768) _ hzr2]

set_option maxHeartbeats 1000000 in
/-- A middle point of a row: the scratch ends at what it held plus the point's contribution. -/
theorem sound_kernel1_B (c : Dev nD) (E : Set ℕ) (i : grid1.Coords)
    (arg3 : Memref sig .tc .vmem S1x1024x768 .bf16) (harg3 : arg3.IsWhole) (arg4 : Memref sig .tc .vmem S1x512x768 .bf16) (harg4 : arg4.IsWhole)
    (arg5 : Memref sig .tc .vmem S1x512x768 .bf16) (harg5 : arg5.IsWhole) (arg6 : Memref sig .tc .vmem S768x768 .bf16) (harg6 : arg6.IsWhole)
    (arg7 : Memref sig .tc .vmem S1x1024x768 .f32) (harg7 : arg7.IsWhole) (arg8 : Memref sig .tc .vmem S1024x768 .f32) (harg8 : arg8.IsWhole)
    (hc0 : ¬ cond1_0 i) (hc1 : ¬ cond1_1 i)
    (x0 : Vec F S1x1024x768 .bf16) (x1 x2 : Vec F S1x512x768 .bf16) (x3 : Vec F S768x768 .bf16) (xo : Vec F S1x1024x768 .f32)
    (acc : Vec F S1024x768 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo ∗ owns (c : Thread nD τ) arg8 fullShare acc
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo
            ∗ owns (c : Thread nD τ) arg8 fullShare (k1_pay2 x0 x1 x2 acc)) -∗ K ⟨⟩))
      ⊢ wp frame (wpE (defs₀ (F := F)) Variants.none c none) E (cc1__attn_kernel i arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  rw [View.read_writes_eq_canon _ _ _ (fun y => ⟨_, List.mem_cons_self, View.mem_set_unit_zero hzr2 inb_S1024x768_S1024x768_0_0 y⟩), View.canon_cons_unit_zero hzr2]
  simp only [View.readAt_eq_ld, View.ld_unit_zero (S := S1x1024x768) hzr3, View.ld_unit_zero (S := S1x512x768) hzr3, View.ld_unit_zero (S := S1024x768) hzr2, View.ld_unit_zero (S := S768x768) hzr2, View.readCov_unit_zero (S := S1024x768) _ hzr2]

set_option maxHeartbeats 1000000 in
/-- A last point of a row: the scratch ends at what it held plus the point's contribution, and the output buffer,
    whatever it held, at that sum projected through the output weights and scaled. -/
theorem sound_kernel1_C (c : Dev nD) (E : Set ℕ) (i : grid1.Coords)
    (arg3 : Memref sig .tc .vmem S1x1024x768 .bf16) (harg3 : arg3.IsWhole) (arg4 : Memref sig .tc .vmem S1x512x768 .bf16) (harg4 : arg4.IsWhole)
    (arg5 : Memref sig .tc .vmem S1x512x768 .bf16) (harg5 : arg5.IsWhole) (arg6 : Memref sig .tc .vmem S768x768 .bf16) (harg6 : arg6.IsWhole)
    (arg7 : Memref sig .tc .vmem S1x1024x768 .f32) (harg7 : arg7.IsWhole) (arg8 : Memref sig .tc .vmem S1024x768 .f32) (harg8 : arg8.IsWhole)
    (hc0 : ¬ cond1_0 i) (hc1 : cond1_1 i)
    (x0 : Vec F S1x1024x768 .bf16) (x1 x2 : Vec F S1x512x768 .bf16) (x3 : Vec F S768x768 .bf16)
    (acc : Vec F S1024x768 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare acc
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare (k1_pay3 (k1_pay2 x0 x1 x2 acc) x3)
            ∗ owns (c : Thread nD τ) arg8 fullShare (k1_pay2 x0 x1 x2 acc)) -∗ K ⟨⟩))
      ⊢ wp frame (wpE (defs₀ (F := F)) Variants.none c none) E (cc1__attn_kernel i arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (fun y => ⟨_, List.mem_cons_self, View.mem_set_unit_zero hzr3 inb_S1x1024x768_S1x1024x768_0_0_0 y⟩), View.canon_cons_unit_zero hzr3]
    simp only [View.readAt_eq_ld, View.ld_unit_zero (S := S1x1024x768) hzr3, View.ld_unit_zero (S := S1x512x768) hzr3, View.ld_unit_zero (S := S1024x768) hzr2, View.ld_unit_zero (S := S768x768) hzr2, View.readCov_unit_zero (S := S1024x768) _ hzr2]
  iexists _; isplitr
  swap; · iexact H5
  ipureintro
  sl_unfold_run_names
  rw [View.read_writes_eq_canon _ _ _ (fun y => ⟨_, List.mem_cons_self, View.mem_set_unit_zero hzr2 inb_S1024x768_S1024x768_0_0 y⟩), View.canon_cons_unit_zero hzr2]
  simp only [View.readAt_eq_ld, View.ld_unit_zero (S := S1x1024x768) hzr3, View.ld_unit_zero (S := S1x512x768) hzr3, View.ld_unit_zero (S := S1024x768) hzr2, View.ld_unit_zero (S := S768x768) hzr2, View.readCov_unit_zero (S := S1024x768) _ hzr2]

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator and the region's invariant -/

/-- The accumulator scratch as one whole buffer. -/
abbrev scM : Memref sig .tc .vmem S1024x768 .f32 := Memref.whole cc1_scratch0

/-- What the scratch holds after the body at point n: at the first key block of a row zero plus the point's
    contribution, afterwards what the point before left plus the point's contribution. -/
def accAt (c : Dev nD) : (n : ℕ) → n < cfg1.N → Vec F S1024x768 .f32
  | 0, hn => k1_pay2 (iblk1 V c 0 ⟨0, hn⟩) (iblk1 V c 1 ⟨0, hn⟩) (iblk1 V c 2 ⟨0, hn⟩) (k1_pay1 (F := F))
  | n + 1, hn =>
    if (n + 1) % 8 = 0 then k1_pay2 (iblk1 V c 0 ⟨n + 1, hn⟩) (iblk1 V c 1 ⟨n + 1, hn⟩) (iblk1 V c 2 ⟨n + 1, hn⟩) (k1_pay1 (F := F))
    else k1_pay2 (iblk1 V c 0 ⟨n + 1, hn⟩) (iblk1 V c 1 ⟨n + 1, hn⟩) (iblk1 V c 2 ⟨n + 1, hn⟩) (accAt c n (Nat.lt_of_succ_lt hn))

theorem accAt_first (c : Dev nD) (t : Fin cfg1.N) (h : t.val % 8 = 0) :
    accAt V c t.val t.isLt = k1_pay2 (iblk1 V c 0 t) (iblk1 V c 1 t) (iblk1 V c 2 t) (k1_pay1 (F := F)) := by
  obtain ⟨n, hn⟩ := t
  cases n with
  | zero => rfl
  | succ n => exact if_pos h

theorem accAt_next (c : Dev nD) (t : Fin cfg1.N) (h : ¬ t.val % 8 = 0) :
    accAt V c t.val t.isLt = k1_pay2 (iblk1 V c 0 t) (iblk1 V c 1 t) (iblk1 V c 2 t)
      (accAt V c (t.val - 1) (Nat.lt_of_le_of_lt (Nat.sub_le _ _) t.isLt)) := by
  obtain ⟨n, hn⟩ := t
  cases n with
  | zero => exact absurd (Nat.zero_mod _) h
  | succ n => exact if_neg h

/-- The scoped buffers region 1 does not stage, the scratch apart: region 0's staging buffers, each at some contents. -/
def restOnly (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f))

/-- What the launch hands the region splits into the scratch at some contents, the other scoped buffers and the
    generator register, -/
theorem PhiA_split (c : Dev nD) :
    (Pipeline.ΦA spec1 c : sProp 𝕄) ⊢ iprop(((∃ d, owns (c : Thread nD τ) scM fullShare d) ∗ restOnly (F := F) c) ∗ ∃ r, prngReg c r) := by
  unfold Pipeline.ΦA restOnly; rw [scopedRest1_eq]
  iintro ⟨⟨R0, R1, R2, R3, R4, R5, R6, R7, R8, R9, R10, ⟨%f, HS⟩⟩, Hg⟩
  isplitr [Hg]
  · isplitl [HS]
    · iexists f; rw [owns_whole]; iexact HS
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10
  iexact Hg

/-- and these make it again. -/
theorem PhiA_join (c : Dev nD) :
    iprop(((∃ d, owns (c : Thread nD τ) scM fullShare d) ∗ restOnly (F := F) c) ∗ ∃ r, prngReg c r) ⊢ (Pipeline.ΦA spec1 c : sProp 𝕄) := by
  unfold Pipeline.ΦA restOnly; rw [scopedRest1_eq]
  iintro ⟨⟨⟨%d, HS⟩, R0, R1, R2, R3, R4, R5, R6, R7, R8, R9, R10⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexists d; rw [← owns_whole (c : Thread nD τ) cc1_scratch0 fullShare d]; iexact HS
  iexact Hg

/-- The region's invariant before position n: before the first point what the launch hands it; afterwards the
    scratch at what the point before left, the other scoped buffers at anything, the generator register at some state. -/
def PhiS (c : Dev nD) : (n : ℕ) → n ≤ cfg1.N → sProp 𝕄
  | 0, _ => Pipeline.ΦA spec1 c
  | n + 1, hn => iprop((owns (c : Thread nD τ) scM fullShare (accAt V c n hn) ∗ restOnly (F := F) c) ∗ ∃ r, prngReg c r)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((owns (c : Thread nD τ) scM fullShare (accAt V c n hn) ∗ restOnly (F := F) c) ∗ ∃ r, prngReg c r) := rfl

theorem PhiS_pos (c : Dev nD) (n : ℕ) (h : n ≤ cfg1.N) (hz : n ≠ 0) :
    PhiS V c n h = iprop((owns (c : Thread nD τ) scM fullShare (accAt V c (n - 1) (by omega)) ∗ restOnly (F := F) c) ∗ ∃ r, prngReg c r) := by
  cases n with
  | zero => exact absurd rfl hz
  | succ n => rfl

/-! ## The proof data -/

/-- Region 1's proof data on core c: the arrays as the region finds them; after the body each input buffer at its
    block and, where the output is stored, the output buffer at the accumulator projected through the output weights
    and scaled; the invariant carries the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (accAt V c t.val t.isLt) (iblk1 V c 3 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (accAt V c t.val t.isLt) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The conditions over the grid, and where the output window is idle -/

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the output window, where the point does not store it, as it was handed over. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ (dat1 V c).leavesExact 4 t)

set_option maxHeartbeats 4000000 in
/-- The body at any point, by the point's place in its row of key blocks: the first zeroes the scratch whatever it
    held, the others find it at what the point before left; only the last stores the output block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3]
  have hN : t.val < 64 := lt_of_lt_of_eq t.isLt (show cfg1.N = 64 from N_1)
  by_cases h0 : t.val % 8 = 0
  · have h1 : ¬ t.val % 8 = 7 := by omega
    rw [Dat.leavesExact_idle (dat1 V c) 4 t (idleAt1_4 t (fun h => h1 ((hcond1_1 t).mp h))) (noFlush1_4 t (fun h => h1 ((hcond1_1 t).mp h)))]
    rw [accAt_first V c t h0]
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩⟩
      ihave HΦ' := (PhiA_split (F := F) c) $$ HΦ
      icases HΦ' with ⟨⟨HS, Hrest⟩, Hg⟩
      iapply (sound_kernel1_A c Set.univ (grid1.coords t) _ _ _ _ _ _ _ _ _ _ _ _ ((hcond1_0 t).mpr h0) (fun h => h1 ((hcond1_1 t).mp h))
        (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (sound_kernel1_A c Set.univ (grid1.coords t) _ _ _ _ _ _ _ _ _ _ _ _ ((hcond1_0 t).mpr h0) (fun h => h1 ((hcond1_1 t).mp h))
        (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dat1 V c).leavesExact 4 t = owns (c : Thread nD τ) (st1_4 t) fullShare ((dat1 V c).after 4 t) from by
        unfold Dat.leavesExact; rw [liveAt1_4 t ((hcond1_1 t).mpr h1)], after1_4]
      rw [accAt_next V c t h0]
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (sound_kernel1_C c Set.univ (grid1.coords t) _ _ _ _ _ _ _ _ _ _ _ _ (fun h => h0 ((hcond1_0 t).mp h)) ((hcond1_1 t).mpr h1)
        (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcond1_1 t).mp h))) (noFlush1_4 t (fun h => h1 ((hcond1_1 t).mp h)))]
      rw [accAt_next V c t h0]
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS V c 0 (Nat.zero_le _) from rfl, PhiS_zero V c 0 _ rfl]

/-- and after the last point the invariant gives it back, the scratch's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega)]
  refine BIBase.Entails.trans ?_ (PhiA_join (F := F) c)
  iintro ⟨⟨HS, Hrest⟩, Hg⟩
  isplitr [Hg]
  · isplitl [HS]; · iexists _; iexact HS
    iexact Hrest
  iexact Hg

end Region1

end Cert.Kernel.Hand

end
-- ==== Proof.K.Run.lean ====
import proofs.«120198_j7679401525929_1_alg».proof.Proof.K.Body0
import proofs.«120198_j7679401525929_1_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the program's three items from the launch to the return

The host stretch (four transposes, four roundings), the projection region, the attention region. Between items
the core holds every unscoped buffer whole at a known valuation: the launch memory, then the host stretch's fold
over it, then each region's arrays at what its write-backs leave and every other buffer as entered. -/

/-- Core c's buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 1's entry: no host operation stands between the regions). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched

No host operation and no region writes an argument: region 0 reads the input through a window, the weights are
read by the host stretch only. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The result array ends at what region 1's write-backs leave. -/
theorem W3_main_v9 (c : Dev nD) : W3 m ρ c (Proc.devRef .tc main_v9) = (dat1 (V2 m ρ) c).arrAt 4 cfg1.N :=
  W3_arr m ρ c 4

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the core's debts apart. -/
abbrev Tₙ (c : Dev nD) : sProp 𝕄 := iprop(StableHlo.held (c : Thread nD τ) (Pipeline.ucRefs τ sig) (W3 m ρ c) ∗ ∃ r, prngReg c r)

/-! ## The regions as items -/

set_option backward.isDefEq.respectTransparency.types false in
/-- Region 0 over the thread state: entered with every unscoped buffer at the host stretch's fold, left with its
    three result arrays at what its write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered at region 0's exit contents, left with the result array at what its
    write-backs leave; the scratch enters and leaves inside the scoped rest. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final memory holds each unscoped buffer at the last boundary's valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- The run with the result array named: it ends at what region 1's write-backs leave, the arguments as launched. -/
theorem run_value : θ_run defs (onTc (τ := τ) (main (F := F))) ⟨m, fun _ => 0, ρ⟩ (fun r => ∀ c : Dev nD,
      r.2.mem ((c.tc : Thread nD τ).loc main_v9) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v9 (by decide))).trans (W3_main_v9 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.Kernel.Hand

end
-- ==== Proof.KI.Body0.lean ====
import proofs.«120198_j7679401525929_1_alg».proof.Proof.Gen.KernelIdeal.Launch
import proofs.«120198_j7679401525929_1_alg».proof.Proof.Gen.KernelIdeal.Skeleton
import proofs.«120198_j7679401525929_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the three projections

Every point of the 2 by 4 grid takes one block of 1024 rows of the input and the three transposed weight matrices
whole, and stores three blocks: the rows times each weight matrix, the first two scaled by the literal one tenth.
Nothing is carried between points. -/

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched its block index has not moved, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem hz2 : (![0, 0] : Fin 2 → ℕ) = fun _ => 0 := by funext a; fin_cases a <;> rfl
theorem hz3 : (![0, 0, 0] : Fin 3 → ℕ) = fun _ => 0 := by funext a; fin_cases a <;> rfl

set_option maxHeartbeats 1000000 in
/-- The body on whole staging buffers: the inputs stay, each output buffer, whatever it held, ends at its projection
    of the input block. -/
theorem sound_kernel0 (c : Dev nD) (E : Set ℕ) (i : grid0.Coords)
    (arg2 : Memref sig .tc .vmem S1x1024x768 .f32) (harg2 : arg2.IsWhole) (arg3 : Memref sig .tc .vmem S768x768 .bf16) (harg3 : arg3.IsWhole)
    (arg4 : Memref sig .tc .vmem S768x768 .bf16) (harg4 : arg4.IsWhole) (arg5 : Memref sig .tc .vmem S768x768 .bf16) (harg5 : arg5.IsWhole)
    (arg6 : Memref sig .tc .vmem S1x1024x768 .bf16) (harg6 : arg6.IsWhole) (arg7 : Memref sig .tc .vmem S1x1024x768 .bf16) (harg7 : arg7.IsWhole)
    (arg8 : Memref sig .tc .vmem S1x1024x768 .bf16) (harg8 : arg8.IsWhole)
    (x0 : Vec F S1x1024x768 .f32) (x1 x2 x3 : Vec F S768x768 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3
            ∗ owns (c : Thread nD τ) arg6 fullShare (k0_pay2 x0 x1) ∗ owns (c : Thread nD τ) arg7 fullShare (k0_pay3 x0 x2)
            ∗ owns (c : Thread nD τ) arg8 fullShare (k0_pay4 x0 x3)) -∗ K ⟨⟩))
      ⊢ wp frame (wpE (defs₀ (F := F)) Variants.none c none) E (cc0__qkv_kernel i arg2 harg2 arg3 harg3 arg4 harg4 arg5 harg5 arg6 harg6 arg7 harg7 arg8 harg8) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_singleton_self _, View.mem_set_unit_zero hz3 inb_S1x1024x768_S1x1024x768_0_0_0 y⟩), View.canon_unit_zero hz3]
    simp only [View.readAt_eq_ld, View.ld_unit_zero (S := S1x1024x768) hz3, View.ld_unit_zero (S := S768x768) hz2]
  isplitl [H5]
  · iexists _; isplitr
    swap; · iexact H5
    ipureintro
    rw [View.read_writes_eq_canon _ _ _ (fun y => ⟨_, List.mem_singleton_self _, View.mem_set_unit_zero hz3 inb_S1x1024x768_S1x1024x768_0_0_0 y⟩), View.canon_unit_zero hz3]
    simp only [View.readAt_eq_ld, View.ld_unit_zero (S := S1x1024x768) hz3, View.ld_unit_zero (S := S768x768) hz2]
  iexists _; isplitr
  swap; · iexact H6
  ipureintro
  rw [View.read_writes_eq_canon _ _ _ (fun y => ⟨_, List.mem_singleton_self _, View.mem_set_unit_zero hz3 inb_S1x1024x768_S1x1024x768_0_0_0 y⟩), View.canon_unit_zero hz3]
  simp only [View.readAt_eq_ld, View.ld_unit_zero (S := S1x1024x768) hz3, View.ld_unit_zero (S := S768x768) hz2]

/-! ## The proof data -/

/-- Region 0's proof data on core c: the arrays as the region finds them; after the body each input buffer at its
    block and each output buffer at its projection of the input block; the invariant only the scoped buffers the
    region does not stage and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (iblk0 V c 0 t) (iblk0 V c 1 t)
    | ⟨5, _⟩ => k0_pay3 (iblk0 V c 0 t) (iblk0 V c 2 t)
    | ⟨6, _⟩ => k0_pay4 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay2 (iblk0 V c 0 t) (iblk0 V c 1 t) := by dsimp only [dat0]
theorem after0_5 (c : Dev nD) (t : Fin cfg0.N) : (dat0 V c).after 5 t = k0_pay3 (iblk0 V c 0 t) (iblk0 V c 2 t) := by dsimp only [dat0]
theorem after0_6 (c : Dev nD) (t : Fin cfg0.N) : (dat0 V c).after 6 t = k0_pay4 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Body1.lean ====
import proofs.«120198_j7679401525929_1_alg».proof.Proof.Gen.KernelIdeal.Launch
import proofs.«120198_j7679401525929_1_alg».proof.Proof.Gen.KernelIdeal.Skeleton
import proofs.«120198_j7679401525929_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: polynomial attention and the output projection

The grid is 2 batches by 4 query blocks by 8 key blocks, the key block innermost. A scratch accumulator is carried
along each row of 8 key blocks: zeroed at the first, added to at every point, projected and stored at the last. -/

theorem hzr2 : (![0, 0] : Fin 2 → ℕ) = fun _ => 0 := by funext a; fin_cases a <;> rfl
theorem hzr3 : (![0, 0, 0] : Fin 3 → ℕ) = fun _ => 0 := by funext a; fin_cases a <;> rfl

/-! ## The attention body, case by case

The body's two conditionals read only the grid's third coordinate, the key block's number: the first (at key
block 0) zeroes the accumulator scratch, the second (at key block 7) projects the accumulator through the output
weights and stores the output block. Between them the body always adds the point's contribution, the polynomial
of the scaled scores times the value block, to the scratch. -/

/-- The first conditional's test: the point is the first of its row of key blocks. -/
abbrev cond1_0 (i : grid1.Coords) : Prop := (Scalar.cmpi .ne (Scalar.extui (Scalar.cmpi .eq (BitVec.ofNat 32 (i 2).val) 0#32)) 0#32) = 1#1
/-- The second conditional's test: the point is the last of its row of key blocks. -/
abbrev cond1_1 (i : grid1.Coords) : Prop := k1_cond2 i = 1#1

set_option maxHeartbeats 1000000 in
/-- A first point of a row: the scratch, whatever it held, ends at zero plus the point's contribution; the output
    buffer is not touched. -/
theorem sound_kernel1_A (c : Dev nD) (E : Set ℕ) (i : grid1.Coords)
    (arg3 : Memref sig .tc .vmem S1x1024x768 .bf16) (harg3 : arg3.IsWhole) (arg4 : Memref sig .tc .vmem S1x512x768 .bf16) (harg4 : arg4.IsWhole)
    (arg5 : Memref sig .tc .vmem S1x512x768 .bf16) (harg5 : arg5.IsWhole) (arg6 : Memref sig .tc .vmem S768x768 .bf16) (harg6 : arg6.IsWhole)
    (arg7 : Memref sig .tc .vmem S1x1024x768 .f32) (harg7 : arg7.IsWhole) (arg8 : Memref sig .tc .vmem S1024x768 .f32) (harg8 : arg8.IsWhole)
    (hc0 : cond1_0 i) (hc1 : ¬ cond1_1 i)
    (x0 : Vec F S1x1024x768 .bf16) (x1 x2 : Vec F S1x512x768 .bf16) (x3 : Vec F S768x768 .bf16) (xo : Vec F S1x1024x768 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo ∗ (∃ d, owns (c : Thread nD τ) arg8 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo
            ∗ owns (c : Thread nD τ) arg8 fullShare (k1_pay2 x0 x1 x2 (k1_pay1 (F := F)))) -∗ K ⟨⟩))
      ⊢ wp frame (wpE (defs₀ (F := F)) Variants.none c none) E (cc1__attn_kernel i arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  rw [View.read_writes_eq_canon _ _ _ (fun y => ⟨_, List.mem_cons_self, View.mem_set_unit_zero hzr2 inb_S1024x768_S1024x768_0_0 y⟩), View.canon_cons_unit_zero hzr2]
  simp only [View.readAt_eq_ld, View.ld_unit_zero (S := S1x1024x768) hzr3, View.ld_unit_zero (S := S1x512x768) hzr3, View.ld_unit_zero (S := S1024x768) hzr2, View.ld_unit_zero (S := S768x768) hzr2, View.readCov_unit_zero (S := S1024x768) _ hzr2]

set_option maxHeartbeats 1000000 in
/-- A middle point of a row: the scratch ends at what it held plus the point's contribution. -/
theorem sound_kernel1_B (c : Dev nD) (E : Set ℕ) (i : grid1.Coords)
    (arg3 : Memref sig .tc .vmem S1x1024x768 .bf16) (harg3 : arg3.IsWhole) (arg4 : Memref sig .tc .vmem S1x512x768 .bf16) (harg4 : arg4.IsWhole)
    (arg5 : Memref sig .tc .vmem S1x512x768 .bf16) (harg5 : arg5.IsWhole) (arg6 : Memref sig .tc .vmem S768x768 .bf16) (harg6 : arg6.IsWhole)
    (arg7 : Memref sig .tc .vmem S1x1024x768 .f32) (harg7 : arg7.IsWhole) (arg8 : Memref sig .tc .vmem S1024x768 .f32) (harg8 : arg8.IsWhole)
    (hc0 : ¬ cond1_0 i) (hc1 : ¬ cond1_1 i)
    (x0 : Vec F S1x1024x768 .bf16) (x1 x2 : Vec F S1x512x768 .bf16) (x3 : Vec F S768x768 .bf16) (xo : Vec F S1x1024x768 .f32)
    (acc : Vec F S1024x768 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo ∗ owns (c : Thread nD τ) arg8 fullShare acc
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo
            ∗ owns (c : Thread nD τ) arg8 fullShare (k1_pay2 x0 x1 x2 acc)) -∗ K ⟨⟩))
      ⊢ wp frame (wpE (defs₀ (F := F)) Variants.none c none) E (cc1__attn_kernel i arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  rw [View.read_writes_eq_canon _ _ _ (fun y => ⟨_, List.mem_cons_self, View.mem_set_unit_zero hzr2 inb_S1024x768_S1024x768_0_0 y⟩), View.canon_cons_unit_zero hzr2]
  simp only [View.readAt_eq_ld, View.ld_unit_zero (S := S1x1024x768) hzr3, View.ld_unit_zero (S := S1x512x768) hzr3, View.ld_unit_zero (S := S1024x768) hzr2, View.ld_unit_zero (S := S768x768) hzr2, View.readCov_unit_zero (S := S1024x768) _ hzr2]

set_option maxHeartbeats 1000000 in
/-- A last point of a row: the scratch ends at what it held plus the point's contribution, and the output buffer,
    whatever it held, at that sum projected through the output weights and scaled. -/
theorem sound_kernel1_C (c : Dev nD) (E : Set ℕ) (i : grid1.Coords)
    (arg3 : Memref sig .tc .vmem S1x1024x768 .bf16) (harg3 : arg3.IsWhole) (arg4 : Memref sig .tc .vmem S1x512x768 .bf16) (harg4 : arg4.IsWhole)
    (arg5 : Memref sig .tc .vmem S1x512x768 .bf16) (harg5 : arg5.IsWhole) (arg6 : Memref sig .tc .vmem S768x768 .bf16) (harg6 : arg6.IsWhole)
    (arg7 : Memref sig .tc .vmem S1x1024x768 .f32) (harg7 : arg7.IsWhole) (arg8 : Memref sig .tc .vmem S1024x768 .f32) (harg8 : arg8.IsWhole)
    (hc0 : ¬ cond1_0 i) (hc1 : cond1_1 i)
    (x0 : Vec F S1x1024x768 .bf16) (x1 x2 : Vec F S1x512x768 .bf16) (x3 : Vec F S768x768 .bf16)
    (acc : Vec F S1024x768 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare acc
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare (k1_pay3 (k1_pay2 x0 x1 x2 acc) x3)
            ∗ owns (c : Thread nD τ) arg8 fullShare (k1_pay2 x0 x1 x2 acc)) -∗ K ⟨⟩))
      ⊢ wp frame (wpE (defs₀ (F := F)) Variants.none c none) E (cc1__attn_kernel i arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (fun y => ⟨_, List.mem_cons_self, View.mem_set_unit_zero hzr3 inb_S1x1024x768_S1x1024x768_0_0_0 y⟩), View.canon_cons_unit_zero hzr3]
    simp only [View.readAt_eq_ld, View.ld_unit_zero (S := S1x1024x768) hzr3, View.ld_unit_zero (S := S1x512x768) hzr3, View.ld_unit_zero (S := S1024x768) hzr2, View.ld_unit_zero (S := S768x768) hzr2, View.readCov_unit_zero (S := S1024x768) _ hzr2]
  iexists _; isplitr
  swap; · iexact H5
  ipureintro
  sl_unfold_run_names
  rw [View.read_writes_eq_canon _ _ _ (fun y => ⟨_, List.mem_cons_self, View.mem_set_unit_zero hzr2 inb_S1024x768_S1024x768_0_0 y⟩), View.canon_cons_unit_zero hzr2]
  simp only [View.readAt_eq_ld, View.ld_unit_zero (S := S1x1024x768) hzr3, View.ld_unit_zero (S := S1x512x768) hzr3, View.ld_unit_zero (S := S1024x768) hzr2, View.ld_unit_zero (S := S768x768) hzr2, View.readCov_unit_zero (S := S1024x768) _ hzr2]

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator and the region's invariant -/

/-- The accumulator scratch as one whole buffer. -/
abbrev scM : Memref sig .tc .vmem S1024x768 .f32 := Memref.whole cc1_scratch0

/-- What the scratch holds after the body at point n: at the first key block of a row zero plus the point's
    contribution, afterwards what the point before left plus the point's contribution. -/
def accAt (c : Dev nD) : (n : ℕ) → n < cfg1.N → Vec F S1024x768 .f32
  | 0, hn => k1_pay2 (iblk1 V c 0 ⟨0, hn⟩) (iblk1 V c 1 ⟨0, hn⟩) (iblk1 V c 2 ⟨0, hn⟩) (k1_pay1 (F := F))
  | n + 1, hn =>
    if (n + 1) % 8 = 0 then k1_pay2 (iblk1 V c 0 ⟨n + 1, hn⟩) (iblk1 V c 1 ⟨n + 1, hn⟩) (iblk1 V c 2 ⟨n + 1, hn⟩) (k1_pay1 (F := F))
    else k1_pay2 (iblk1 V c 0 ⟨n + 1, hn⟩) (iblk1 V c 1 ⟨n + 1, hn⟩) (iblk1 V c 2 ⟨n + 1, hn⟩) (accAt c n (Nat.lt_of_succ_lt hn))

theorem accAt_first (c : Dev nD) (t : Fin cfg1.N) (h : t.val % 8 = 0) :
    accAt V c t.val t.isLt = k1_pay2 (iblk1 V c 0 t) (iblk1 V c 1 t) (iblk1 V c 2 t) (k1_pay1 (F := F)) := by
  obtain ⟨n, hn⟩ := t
  cases n with
  | zero => rfl
  | succ n => exact if_pos h

theorem accAt_next (c : Dev nD) (t : Fin cfg1.N) (h : ¬ t.val % 8 = 0) :
    accAt V c t.val t.isLt = k1_pay2 (iblk1 V c 0 t) (iblk1 V c 1 t) (iblk1 V c 2 t)
      (accAt V c (t.val - 1) (Nat.lt_of_le_of_lt (Nat.sub_le _ _) t.isLt)) := by
  obtain ⟨n, hn⟩ := t
  cases n with
  | zero => exact absurd (Nat.zero_mod _) h
  | succ n => exact if_neg h

/-- The scoped buffers region 1 does not stage, the scratch apart: region 0's staging buffers, each at some contents. -/
def restOnly (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f))

/-- What the launch hands the region splits into the scratch at some contents, the other scoped buffers and the
    generator register, -/
theorem PhiA_split (c : Dev nD) :
    (Pipeline.ΦA spec1 c : sProp 𝕄) ⊢ iprop(((∃ d, owns (c : Thread nD τ) scM fullShare d) ∗ restOnly (F := F) c) ∗ ∃ r, prngReg c r) := by
  unfold Pipeline.ΦA restOnly; rw [scopedRest1_eq]
  iintro ⟨⟨R0, R1, R2, R3, R4, R5, R6, R7, R8, R9, R10, ⟨%f, HS⟩⟩, Hg⟩
  isplitr [Hg]
  · isplitl [HS]
    · iexists f; rw [owns_whole]; iexact HS
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10
  iexact Hg

/-- and these make it again. -/
theorem PhiA_join (c : Dev nD) :
    iprop(((∃ d, owns (c : Thread nD τ) scM fullShare d) ∗ restOnly (F := F) c) ∗ ∃ r, prngReg c r) ⊢ (Pipeline.ΦA spec1 c : sProp 𝕄) := by
  unfold Pipeline.ΦA restOnly; rw [scopedRest1_eq]
  iintro ⟨⟨⟨%d, HS⟩, R0, R1, R2, R3, R4, R5, R6, R7, R8, R9, R10⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexists d; rw [← owns_whole (c : Thread nD τ) cc1_scratch0 fullShare d]; iexact HS
  iexact Hg

/-- The region's invariant before position n: before the first point what the launch hands it; afterwards the
    scratch at what the point before left, the other scoped buffers at anything, the generator register at some state. -/
def PhiS (c : Dev nD) : (n : ℕ) → n ≤ cfg1.N → sProp 𝕄
  | 0, _ => Pipeline.ΦA spec1 c
  | n + 1, hn => iprop((owns (c : Thread nD τ) scM fullShare (accAt V c n hn) ∗ restOnly (F := F) c) ∗ ∃ r, prngReg c r)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((owns (c : Thread nD τ) scM fullShare (accAt V c n hn) ∗ restOnly (F := F) c) ∗ ∃ r, prngReg c r) := rfl

theorem PhiS_pos (c : Dev nD) (n : ℕ) (h : n ≤ cfg1.N) (hz : n ≠ 0) :
    PhiS V c n h = iprop((owns (c : Thread nD τ) scM fullShare (accAt V c (n - 1) (by omega)) ∗ restOnly (F := F) c) ∗ ∃ r, prngReg c r) := by
  cases n with
  | zero => exact absurd rfl hz
  | succ n => rfl

/-! ## The proof data -/

/-- Region 1's proof data on core c: the arrays as the region finds them; after the body each input buffer at its
    block and, where the output is stored, the output buffer at the accumulator projected through the output weights
    and scaled; the invariant carries the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (accAt V c t.val t.isLt) (iblk1 V c 3 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (accAt V c t.val t.isLt) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The conditions over the grid, and where the output window is idle -/

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the output window, where the point does not store it, as it was handed over. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ (dat1 V c).leavesExact 4 t)

set_option maxHeartbeats 4000000 in
/-- The body at any point, by the point's place in its row of key blocks: the first zeroes the scratch whatever it
    held, the others find it at what the point before left; only the last stores the output block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3]
  have hN : t.val < 64 := lt_of_lt_of_eq t.isLt (show cfg1.N = 64 from N_1)
  by_cases h0 : t.val % 8 = 0
  · have h1 : ¬ t.val % 8 = 7 := by omega
    rw [Dat.leavesExact_idle (dat1 V c) 4 t (idleAt1_4 t (fun h => h1 ((hcond1_1 t).mp h))) (noFlush1_4 t (fun h => h1 ((hcond1_1 t).mp h)))]
    rw [accAt_first V c t h0]
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩⟩
      ihave HΦ' := (PhiA_split (F := F) c) $$ HΦ
      icases HΦ' with ⟨⟨HS, Hrest⟩, Hg⟩
      iapply (sound_kernel1_A c Set.univ (grid1.coords t) _ _ _ _ _ _ _ _ _ _ _ _ ((hcond1_0 t).mpr h0) (fun h => h1 ((hcond1_1 t).mp h))
        (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (sound_kernel1_A c Set.univ (grid1.coords t) _ _ _ _ _ _ _ _ _ _ _ _ ((hcond1_0 t).mpr h0) (fun h => h1 ((hcond1_1 t).mp h))
        (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dat1 V c).leavesExact 4 t = owns (c : Thread nD τ) (st1_4 t) fullShare ((dat1 V c).after 4 t) from by
        unfold Dat.leavesExact; rw [liveAt1_4 t ((hcond1_1 t).mpr h1)], after1_4]
      rw [accAt_next V c t h0]
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (sound_kernel1_C c Set.univ (grid1.coords t) _ _ _ _ _ _ _ _ _ _ _ _ (fun h => h0 ((hcond1_0 t).mp h)) ((hcond1_1 t).mpr h1)
        (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcond1_1 t).mp h))) (noFlush1_4 t (fun h => h1 ((hcond1_1 t).mp h)))]
      rw [accAt_next V c t h0]
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS V c 0 (Nat.zero_le _) from rfl, PhiS_zero V c 0 _ rfl]

/-- and after the last point the invariant gives it back, the scratch's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega)]
  refine BIBase.Entails.trans ?_ (PhiA_join (F := F) c)
  iintro ⟨⟨HS, Hrest⟩, Hg⟩
  isplitr [Hg]
  · isplitl [HS]; · iexists _; iexact HS
    iexact Hrest
  iexact Hg

end Region1

end Cert.KernelIdeal.Hand

end
-- ==== Proof.KI.Run.lean ====
import proofs.«120198_j7679401525929_1_alg».proof.Proof.KI.Body0
import proofs.«120198_j7679401525929_1_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the program's three items from the launch to the return

The host stretch (four transposes, four roundings), the projection region, the attention region. Between items
the core holds every unscoped buffer whole at a known valuation: the launch memory, then the host stretch's fold
over it, then each region's arrays at what its write-backs leave and every other buffer as entered. -/

/-- Core c's buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 1's entry: no host operation stands between the regions). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched

No host operation and no region writes an argument: region 0 reads the input through a window, the weights are
read by the host stretch only. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The result array ends at what region 1's write-backs leave. -/
theorem W3_main_v9 (c : Dev nD) : W3 m ρ c (Proc.devRef .tc main_v9) = (dat1 (V2 m ρ) c).arrAt 4 cfg1.N :=
  W3_arr m ρ c 4

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the core's debts apart. -/
abbrev Tₙ (c : Dev nD) : sProp 𝕄 := iprop(StableHlo.held (c : Thread nD τ) (Pipeline.ucRefs τ sig) (W3 m ρ c) ∗ ∃ r, prngReg c r)

/-! ## The regions as items -/

set_option backward.isDefEq.respectTransparency.types false in
/-- Region 0 over the thread state: entered with every unscoped buffer at the host stretch's fold, left with its
    three result arrays at what its write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered at region 0's exit contents, left with the result array at what its
    write-backs leave; the scratch enters and leaves inside the scoped rest. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final memory holds each unscoped buffer at the last boundary's valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- The run with the result array named: it ends at what region 1's write-backs leave, the arguments as launched. -/
theorem run_value : θ_run defs (onTc (τ := τ) (main (F := F))) ⟨m, fun _ => 0, ρ⟩ (fun r => ∀ c : Dev nD,
      r.2.mem ((c.tc : Thread nD τ).loc main_v9) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v9 (by decide))).trans (W3_main_v9 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.Hand

end
-- ==== Proof.KI.HostVals.lean ====
/-
  The host stretch read at an index, at the ideal values.

  Before the first region the program transposes each weight matrix and rounds it to bfloat16 (the identity at the
  ideal values): the region is handed, for weights W stored [out, in], the array whose (d, e) entry is W (e, d). The
  input array is not touched.
-/
import proofs.«120198_j7679401525929_1_alg».proof.Proof.KI.Run
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The input array reaches the first region as launched. -/
theorem V1_arg0 (c : Dev nD) :
    (V1 m ρ c main_arg0 : S2x4096x768.Idx → EReal) = m ((c : Thread nD τ).loc main_arg0) := by
  show StableHlo.after hostOps0 (W0 m ρ c) (Proc.devRef .tc main_arg0) = _
  after_results

/-- The transposed, rounded copy of main_arg1: its (d, e) entry is the weights' (e, d) entry. -/
theorem V1_v1 (c : Dev nD) (d e : Fin 768) :
    (V1 m ρ c main_v1 : S768x768.Idx → EReal) (ix2 d e) = (m ((c : Thread nD τ).loc main_arg1) : S768x768.Idx → EReal) (ix2 e d) := by
  have h : @Eq (S768x768.Idx → EReal) (V1 m ρ c main_v1)
      (truncf (F := Ideal) .bf16 (transpose S768x768 [1, 0] (show S768x768.Idx → EReal from m ((c : Thread nD τ).loc main_arg1)) transposes_S768x768_S768x768_1_0) bitsLt_bf16_f32) := by
    show StableHlo.after hostOps0 (W0 m ρ c) (Proc.devRef .tc main_v1) = _
    after_results
  rw [h]
  show transpose S768x768 [1, 0] (show S768x768.Idx → EReal from m ((c : Thread nD τ).loc main_arg1)) transposes_S768x768_S768x768_1_0 (ix2 d e) = _
  exact transpose_ix2_apply _ _ d e

/-- The transposed, rounded copy of main_arg2: its (d, e) entry is the weights' (e, d) entry. -/
theorem V1_v3 (c : Dev nD) (d e : Fin 768) :
    (V1 m ρ c main_v3 : S768x768.Idx → EReal) (ix2 d e) = (m ((c : Thread nD τ).loc main_arg2) : S768x768.Idx → EReal) (ix2 e d) := by
  have h : @Eq (S768x768.Idx → EReal) (V1 m ρ c main_v3)
      (truncf (F := Ideal) .bf16 (transpose S768x768 [1, 0] (show S768x768.Idx → EReal from m ((c : Thread nD τ).loc main_arg2)) transposes_S768x768_S768x768_1_0) bitsLt_bf16_f32) := by
    show StableHlo.after hostOps0 (W0 m ρ c) (Proc.devRef .tc main_v3) = _
    after_results
  rw [h]
  show transpose S768x768 [1, 0] (show S768x768.Idx → EReal from m ((c : Thread nD τ).loc main_arg2)) transposes_S768x768_S768x768_1_0 (ix2 d e) = _
  exact transpose_ix2_apply _ _ d e

/-- The transposed, rounded copy of main_arg3: its (d, e) entry is the weights' (e, d) entry. -/
theorem V1_v5 (c : Dev nD) (d e : Fin 768) :
    (V1 m ρ c main_v5 : S768x768.Idx → EReal) (ix2 d e) = (m ((c : Thread nD τ).loc main_arg3) : S768x768.Idx → EReal) (ix2 e d) := by
  have h : @Eq (S768x768.Idx → EReal) (V1 m ρ c main_v5)
      (truncf (F := Ideal) .bf16 (transpose S768x768 [1, 0] (show S768x768.Idx → EReal from m ((c : Thread nD τ).loc main_arg3)) transposes_S768x768_S768x768_1_0) bitsLt_bf16_f32) := by
    show StableHlo.after hostOps0 (W0 m ρ c) (Proc.devRef .tc main_v5) = _
    after_results
  rw [h]
  show transpose S768x768 [1, 0] (show S768x768.Idx → EReal from m ((c : Thread nD τ).loc main_arg3)) transposes_S768x768_S768x768_1_0 (ix2 d e) = _
  exact transpose_ix2_apply _ _ d e

/-- The transposed, rounded copy of main_arg4: its (d, e) entry is the weights' (e, d) entry. -/
theorem V1_v7 (c : Dev nD) (d e : Fin 768) :
    (V1 m ρ c main_v7 : S768x768.Idx → EReal) (ix2 d e) = (m ((c : Thread nD τ).loc main_arg4) : S768x768.Idx → EReal) (ix2 e d) := by
  have h : @Eq (S768x768.Idx → EReal) (V1 m ρ c main_v7)
      (truncf (F := Ideal) .bf16 (transpose S768x768 [1, 0] (show S768x768.Idx → EReal from m ((c : Thread nD τ).loc main_arg4)) transposes_S768x768_S768x768_1_0) bitsLt_bf16_f32) := by
    show StableHlo.after hostOps0 (W0 m ρ c) (Proc.devRef .tc main_v7) = _
    after_results
  rw [h]
  show transpose S768x768 [1, 0] (show S768x768.Idx → EReal from m ((c : Thread nD τ).loc main_arg4)) transposes_S768x768_S768x768_1_0 (ix2 d e) = _
  exact transpose_ix2_apply _ _ d e

end Cert.KernelIdeal.Hand

end
-- ==== Proof.Spec.lean ====
/-
  The mathematics both programs compute, over the extended reals, index by index.

  Inputs: x of shape [2, 4096, 768] (batch, position, feature) and four weight matrices of shape [768, 768], each
  stored [out, in] as a linear layer's. With t the literal one tenth as a 32-bit float (the same word on both
  sides, never evaluated):
    q = (x Wqᵀ) t,  k = (x Wkᵀ) t,  v = x Wvᵀ,
    s = (q kᵀ) t  per batch,  p = s s + s,  a = p v,  out = (a Woᵀ) t.
  Every product is written operand order as both programs have it, so that no commutation is ever needed; the one law
  the two programs differ by is the regrouping of the sum over the 4096 keys into eight sums over 512, which holds
  in any commutative monoid and so on the extended reals with their infinities.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Spec

open Idealize.ShloMosaic Idealize.ShloMosaic.ValueIdx

/-- The literal one tenth as a 32-bit float, at the ideal values. -/
def tenth : EReal := Ideal.ofBits .f32 0x3DCCCCCD#32

/-- The input's shape and a weight matrix's. -/
abbrev Sx : Shape := ⟨3, ![2, 4096, 768]⟩
abbrev Sw : Shape := ⟨2, ![768, 768]⟩

section

variable (x : Sx.Idx → EReal) (Wq Wk Wv Wo : Sw.Idx → EReal)

/-- A linear layer without bias: position (b, s) of the input against row e of the weights. -/
def lin (W : Sw.Idx → EReal) (b : Fin 2) (s : Fin 4096) (e : Fin 768) : EReal :=
  ∑ d : Fin 768, x (ix3 b s d) * W (ix2 e d)

/-- Queries and keys, scaled; values. -/
def qf (b : Fin 2) (s : Fin 4096) (e : Fin 768) : EReal := lin x Wq b s e * tenth
def kf (b : Fin 2) (s : Fin 4096) (e : Fin 768) : EReal := lin x Wk b s e * tenth
def vf (b : Fin 2) (s : Fin 4096) (e : Fin 768) : EReal := lin x Wv b s e

/-- The scaled score of query position q against key position k. -/
def score (b : Fin 2) (q k : Fin 4096) : EReal := (∑ d : Fin 768, qf x Wq b q d * kf x Wk b k d) * tenth

/-- The polynomial that stands in for the softmax. -/
def poly (b : Fin 2) (q k : Fin 4096) : EReal := score x Wq Wk b q k * score x Wq Wk b q k + score x Wq Wk b q k

/-- One key's contribution to the attention output at (b, q, d). -/
def term (b : Fin 2) (q : Fin 4096) (d : Fin 768) (k : Fin 4096) : EReal := poly x Wq Wk b q k * vf x Wv b k d

/-- The attention output: the sum over all keys. -/
def attn (b : Fin 2) (q : Fin 4096) (d : Fin 768) : EReal := ∑ k : Fin 4096, term x Wq Wk Wv b q d k

/-- The output projection, scaled. -/
def outc (b : Fin 2) (q : Fin 4096) (e : Fin 768) : EReal := (∑ d : Fin 768, attn x Wq Wk Wv b q d * Wo (ix2 e d)) * tenth

/-- The result array. -/
def G : Sx.Idx → EReal := fun i => outc x Wq Wk Wv Wo (i 0) (i 1) (i 2)

theorem G_ix3 (b : Fin 2) (q : Fin 4096) (e : Fin 768) : G x Wq Wk Wv Wo (ix3 b q e) = outc x Wq Wk Wv Wo b q e := rfl

/-- The arrays of queries, keys and values, as the first region leaves them. -/
def Qarr : Sx.Idx → EReal := fun i => qf x Wq (i 0) (i 1) (i 2)
def Karr : Sx.Idx → EReal := fun i => kf x Wk (i 0) (i 1) (i 2)
def Varr : Sx.Idx → EReal := fun i => vf x Wv (i 0) (i 1) (i 2)

end

/-- The key at place k of key block j. -/
def keyAt (j : Fin 8) (k : Fin 512) : Fin 4096 := ⟨j.val * 512 + k.val, by have := j.isLt; have := k.isLt; omega⟩

theorem sum_keys_aux {M : Type*} [AddCommMonoid M] (g : Fin (8 * 512) → M) :
    ∑ k : Fin (8 * 512), g k = ∑ j : Fin 8, ∑ k : Fin 512, g (finProdFinEquiv (j, k)) := by
  rw [← Equiv.sum_comp finProdFinEquiv g, Fintype.sum_prod_type]

/-- A sum over the 4096 keys is the sum over the eight key blocks of the sums over each block's 512 keys. -/
theorem sum_keys {M : Type*} [AddCommMonoid M] (f : Fin 4096 → M) :
    ∑ k : Fin 4096, f k = ∑ j : Fin 8, ∑ k : Fin 512, f (keyAt j k) := by
  refine (sum_keys_aux (M := M) (fun k : Fin (8 * 512) => f k)).trans ?_
  refine Finset.sum_congr rfl fun j _ => Finset.sum_congr rfl fun k _ => congrArg f (Fin.ext ?_)
  show k.val + 512 * j.val = j.val * 512 + k.val
  omega

/-- The running sum over the first n key blocks, as the accumulator builds it: zero, then each block's sum added on
    the right. -/
def partial8 {M : Type*} [AddCommMonoid M] (g : Fin 8 → M) : ℕ → M
  | 0 => 0
  | n + 1 => partial8 g n + (if h : n < 8 then g ⟨n, h⟩ else 0)

theorem partial8_eight {M : Type*} [AddCommMonoid M] (g : Fin 8 → M) : partial8 g 8 = ∑ j : Fin 8, g j := by
  simp only [partial8, Fin.sum_univ_eight]
  simp

end Cert.Spec

end
-- ==== Proof.Pay.lean ====
/-
  The body's arithmetic read at one element, at the ideal values.

  Each payload of the two kernel bodies is one pure function of the blocks the body loaded. Read at an index, with the
  roundings to bfloat16 the identity and a matrix product into a zero accumulator a plain sum over the contracted axis:
  a projection block is rows times a transposed weight matrix (scaled by one tenth for queries and keys); the
  accumulator update adds, over the 512 keys of the block, the polynomial of the scaled score times the value; the
  output block is the accumulator times the transposed output weights, scaled.
-/
import proofs.«120198_j7679401525929_1_alg».proof.Proof.Gen.KernelIdeal.Skeleton
import proofs.«120198_j7679401525929_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Cert.Spec
open Idealize.ShloMosaic Idealize.ShloMosaic.ValueIdx

/-- The scaled score of row r of a query block against row j of a key block. -/
def sc (q : Vec Ideal S1x1024x768 .bf16) (k : Vec Ideal S1x512x768 .bf16) (r : Fin 1024) (j : Fin 512) : EReal :=
  (∑ e : Fin 768, q (ix3 0 r e) * k (ix3 0 j e)) * tenth

/-- Its polynomial. -/
def pl (q : Vec Ideal S1x1024x768 .bf16) (k : Vec Ideal S1x512x768 .bf16) (r : Fin 1024) (j : Fin 512) : EReal :=
  sc q k r j * sc q k r j + sc q k r j

/-! ## The three matrix products into zero, read at an element

Each is the sum over its one contracted axis. The operand indices of a product at an output index and a contraction
index are read coordinate by coordinate: a kept axis reads the output index, the contracted axis the contraction index;
the contraction index, of a shape with one axis, is re-indexed by its one coordinate. -/

theorem lhs_proj_0 (i : S1024x768.Idx) (q : dot_S1024x768_S768x768_S1024x768_1_0_0_1_n_n.contr.Idx) :
    (dot_S1024x768_S768x768_S1024x768_1_0_0_1_n_n.lhsIdx i q 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
theorem lhs_proj_1 (i : S1024x768.Idx) (q : dot_S1024x768_S768x768_S1024x768_1_0_0_1_n_n.contr.Idx) :
    (dot_S1024x768_S768x768_S1024x768_1_0_0_1_n_n.lhsIdx i q 1).val = (q ⟨0, by decide⟩).val :=
  dot_S1024x768_S768x768_S1024x768_1_0_0_1_n_n.lhsIdx_val_of_single rfl i q
theorem rhs_proj_0 (i : S1024x768.Idx) (q : dot_S1024x768_S768x768_S1024x768_1_0_0_1_n_n.contr.Idx) :
    (dot_S1024x768_S768x768_S1024x768_1_0_0_1_n_n.rhsIdx i q 0).val = (q ⟨0, by decide⟩).val :=
  dot_S1024x768_S768x768_S1024x768_1_0_0_1_n_n.rhsIdx_val_of_single rfl i q
theorem rhs_proj_1 (i : S1024x768.Idx) (q : dot_S1024x768_S768x768_S1024x768_1_0_0_1_n_n.contr.Idx) :
    (dot_S1024x768_S768x768_S1024x768_1_0_0_1_n_n.rhsIdx i q 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- Rows [1024,768] times a [768,768] matrix (the row's axis 1 against the matrix's axis 0) into zero, at (p, c): the sum
    over the 768 contracted places. -/
theorem mm_proj_apply (a : FVec Ideal S1024x768 .bf16) (b : FVec Ideal S768x768 .bf16) (p : Fin 1024) (c : Fin 768) :
    matmul dot_S1024x768_S768x768_S1024x768_1_0_0_1_n_n none a b (constant (F := Ideal) S1024x768 .f32 0x00000000#32) (ix2 p c)
      = ∑ k : Fin 768, a (ix2 p k) * b (ix2 k c) := by
  simp only [matmul]
  rw [Ideal.matmul_constant_zero_apply, ← Equiv.sum_comp (contrEquiv1 dot_S1024x768_S768x768_S1024x768_1_0_0_1_n_n 768 rfl rfl).symm]
  refine Finset.sum_congr rfl fun k _ => ?_
  have hk := contrEquiv1_symm_val dot_S1024x768_S768x768_S1024x768_1_0_0_1_n_n 768 rfl rfl k
  have el : dot_S1024x768_S768x768_S1024x768_1_0_0_1_n_n.lhsIdx (ix2 p c) ((contrEquiv1 dot_S1024x768_S768x768_S1024x768_1_0_0_1_n_n 768 rfl rfl).symm k) = ix2 p k := funext fun a => Fin.ext (by
    match a with
    | ⟨0, _⟩ => exact lhs_proj_0 _ _
    | ⟨1, _⟩ => exact (lhs_proj_1 _ _).trans hk)
  have er : dot_S1024x768_S768x768_S1024x768_1_0_0_1_n_n.rhsIdx (ix2 p c) ((contrEquiv1 dot_S1024x768_S768x768_S1024x768_1_0_0_1_n_n 768 rfl rfl).symm k) = ix2 k c := funext fun a => Fin.ext (by
    match a with
    | ⟨0, _⟩ => exact (rhs_proj_0 _ _).trans hk
    | ⟨1, _⟩ => exact rhs_proj_1 _ _)
  rw [el, er]

theorem lhs_qk_0 (i : S1024x512.Idx) (q : dot_S1024x768_S512x768_S1024x512_1_1_0_0_n_n.contr.Idx) :
    (dot_S1024x768_S512x768_S1024x512_1_1_0_0_n_n.lhsIdx i q 0).val = (i 0).val := by
  unfold DotDims.lhsIdx
  rw [dif_neg (show ¬(0 : Fin S1024x768.rank) ∈ dot_S1024x768_S512x768_S1024x512_1_1_0_0_n_n.lhsBatch by decide), dif_pos (show (0 : Fin S1024x768.rank) ∈ dot_S1024x768_S512x768_S1024x512_1_1_0_0_n_n.lhsNonContracting by decide)]
  rfl
theorem lhs_qk_1 (i : S1024x512.Idx) (q : dot_S1024x768_S512x768_S1024x512_1_1_0_0_n_n.contr.Idx) :
    (dot_S1024x768_S512x768_S1024x512_1_1_0_0_n_n.lhsIdx i q 1).val = (q ⟨0, by decide⟩).val :=
  dot_S1024x768_S512x768_S1024x512_1_1_0_0_n_n.lhsIdx_val_of_single rfl i q
theorem rhs_qk_0 (i : S1024x512.Idx) (q : dot_S1024x768_S512x768_S1024x512_1_1_0_0_n_n.contr.Idx) :
    (dot_S1024x768_S512x768_S1024x512_1_1_0_0_n_n.rhsIdx i q 0).val = (i 1).val := by
  unfold DotDims.rhsIdx
  rw [dif_neg (show ¬(0 : Fin S512x768.rank) ∈ dot_S1024x768_S512x768_S1024x512_1_1_0_0_n_n.rhsBatch by decide), dif_pos (show (0 : Fin S512x768.rank) ∈ dot_S1024x768_S512x768_S1024x512_1_1_0_0_n_n.rhsNonContracting by decide)]
  rfl
theorem rhs_qk_1 (i : S1024x512.Idx) (q : dot_S1024x768_S512x768_S1024x512_1_1_0_0_n_n.contr.Idx) :
    (dot_S1024x768_S512x768_S1024x512_1_1_0_0_n_n.rhsIdx i q 1).val = (q ⟨0, by decide⟩).val :=
  dot_S1024x768_S512x768_S1024x512_1_1_0_0_n_n.rhsIdx_val_of_single rfl i q

/-- Query rows [1024,768] against key rows [512,768] (axis 1 of each contracted) into zero, at (p, c): row p of the
    one dotted with row c of the other. -/
theorem mm_qk_apply (a : FVec Ideal S1024x768 .bf16) (b : FVec Ideal S512x768 .bf16) (p : Fin 1024) (c : Fin 512) :
    matmul dot_S1024x768_S512x768_S1024x512_1_1_0_0_n_n none a b (constant (F := Ideal) S1024x512 .f32 0x00000000#32) (ix2 p c)
      = ∑ k : Fin 768, a (ix2 p k) * b (ix2 c k) := by
  simp only [matmul]
  rw [Ideal.matmul_constant_zero_apply, ← Equiv.sum_comp (contrEquiv1 dot_S1024x768_S512x768_S1024x512_1_1_0_0_n_n 768 rfl rfl).symm]
  refine Finset.sum_congr rfl fun k _ => ?_
  have hk := contrEquiv1_symm_val dot_S1024x768_S512x768_S1024x512_1_1_0_0_n_n 768 rfl rfl k
  have el : dot_S1024x768_S512x768_S1024x512_1_1_0_0_n_n.lhsIdx (ix2 p c) ((contrEquiv1 dot_S1024x768_S512x768_S1024x512_1_1_0_0_n_n 768 rfl rfl).symm k) = ix2 p k := funext fun a => Fin.ext (by
    match a with
    | ⟨0, _⟩ => exact lhs_qk_0 _ _
    | ⟨1, _⟩ => exact (lhs_qk_1 _ _).trans hk)
  have er : dot_S1024x768_S512x768_S1024x512_1_1_0_0_n_n.rhsIdx (ix2 p c) ((contrEquiv1 dot_S1024x768_S512x768_S1024x512_1_1_0_0_n_n 768 rfl rfl).symm k) = ix2 c k := funext fun a => Fin.ext (by
    match a with
    | ⟨0, _⟩ => exact rhs_qk_0 _ _
    | ⟨1, _⟩ => exact (rhs_qk_1 _ _).trans hk)
  rw [el, er]

theorem lhs_av_0 (i : S1024x768.Idx) (q : dot_S1024x512_S512x768_S1024x768_1_0_0_1_n_n.contr.Idx) :
    (dot_S1024x512_S512x768_S1024x768_1_0_0_1_n_n.lhsIdx i q 0).val = (i 0).val := by
  unfold DotDims.lhsIdx
  rw [dif_neg (show ¬(0 : Fin S1024x512.rank) ∈ dot_S1024x512_S512x768_S1024x768_1_0_0_1_n_n.lhsBatch by decide), dif_pos (show (0 : Fin S1024x512.rank) ∈ dot_S1024x512_S512x768_S1024x768_1_0_0_1_n_n.lhsNonContracting by decide)]
  rfl
theorem lhs_av_1 (i : S1024x768.Idx) (q : dot_S1024x512_S512x768_S1024x768_1_0_0_1_n_n.contr.Idx) :
    (dot_S1024x512_S512x768_S1024x768_1_0_0_1_n_n.lhsIdx i q 1).val = (q ⟨0, by decide⟩).val :=
  dot_S1024x512_S512x768_S1024x768_1_0_0_1_n_n.lhsIdx_val_of_single rfl i q
theorem rhs_av_0 (i : S1024x768.Idx) (q : dot_S1024x512_S512x768_S1024x768_1_0_0_1_n_n.contr.Idx) :
    (dot_S1024x512_S512x768_S1024x768_1_0_0_1_n_n.rhsIdx i q 0).val = (q ⟨0, by decide⟩).val :=
  dot_S1024x512_S512x768_S1024x768_1_0_0_1_n_n.rhsIdx_val_of_single rfl i q
theorem rhs_av_1 (i : S1024x768.Idx) (q : dot_S1024x512_S512x768_S1024x768_1_0_0_1_n_n.contr.Idx) :
    (dot_S1024x512_S512x768_S1024x768_1_0_0_1_n_n.rhsIdx i q 1).val = (i 1).val := by
  unfold DotDims.rhsIdx
  rw [dif_neg (show ¬(1 : Fin S512x768.rank) ∈ dot_S1024x512_S512x768_S1024x768_1_0_0_1_n_n.rhsBatch by decide), dif_pos (show (1 : Fin S512x768.rank) ∈ dot_S1024x512_S512x768_S1024x768_1_0_0_1_n_n.rhsNonContracting by decide)]
  rfl

/-- Weights [1024,512] times values [512,768] (the weights' axis 1 against the values' axis 0) into zero, at (p, c): the
    sum over the 512 keys. -/
theorem mm_av_apply (a : FVec Ideal S1024x512 .bf16) (b : FVec Ideal S512x768 .bf16) (p : Fin 1024) (c : Fin 768) :
    matmul dot_S1024x512_S512x768_S1024x768_1_0_0_1_n_n none a b (constant (F := Ideal) S1024x768 .f32 0x00000000#32) (ix2 p c)
      = ∑ k : Fin 512, a (ix2 p k) * b (ix2 k c) := by
  simp only [matmul]
  rw [Ideal.matmul_constant_zero_apply, ← Equiv.sum_comp (contrEquiv1 dot_S1024x512_S512x768_S1024x768_1_0_0_1_n_n 512 rfl rfl).symm]
  refine Finset.sum_congr rfl fun k _ => ?_
  have hk := contrEquiv1_symm_val dot_S1024x512_S512x768_S1024x768_1_0_0_1_n_n 512 rfl rfl k
  have el : dot_S1024x512_S512x768_S1024x768_1_0_0_1_n_n.lhsIdx (ix2 p c) ((contrEquiv1 dot_S1024x512_S512x768_S1024x768_1_0_0_1_n_n 512 rfl rfl).symm k) = ix2 p k := funext fun a => Fin.ext (by
    match a with
    | ⟨0, _⟩ => exact lhs_av_0 _ _
    | ⟨1, _⟩ => exact (lhs_av_1 _ _).trans hk)
  have er : dot_S1024x512_S512x768_S1024x768_1_0_0_1_n_n.rhsIdx (ix2 p c) ((contrEquiv1 dot_S1024x512_S512x768_S1024x768_1_0_0_1_n_n 512 rfl rfl).symm k) = ix2 k c := funext fun a => Fin.ext (by
    match a with
    | ⟨0, _⟩ => exact (rhs_av_0 _ _).trans hk
    | ⟨1, _⟩ => exact rhs_av_1 _ _)
  rw [el, er]

/-! ## The projection blocks -/

/-- A query (or key) block: the rows against the transposed weights, scaled. -/
theorem pay_q_apply (v0 : Vec Ideal S1x1024x768 .f32) (w : Vec Ideal S768x768 .bf16) (r : Fin 1024) (e : Fin 768) :
    k0_pay2 (F := Ideal) v0 w (ix3 0 r e) = (∑ d : Fin 768, v0 (ix3 0 r d) * w (ix2 d e)) * tenth := by
  unfold k0_pay2 k0_pay1
  refine (shapeCast_ab_1ab_apply _ _ 0 r e).trans ?_
  refine congrArg (· * tenth) ?_
  refine (mm_proj_apply _ _ r e).trans ?_
  refine Finset.sum_congr rfl fun d _ => ?_
  refine congrArg₂ (· * ·) ?_ ?_
  · exact shapeCast_1ab_ab_apply v0 _ r d
  · exact congrFun (shapeCast_self w _) (ix2 d e)

theorem pay_k_apply (v0 : Vec Ideal S1x1024x768 .f32) (w : Vec Ideal S768x768 .bf16) (r : Fin 1024) (e : Fin 768) :
    k0_pay3 (F := Ideal) v0 w (ix3 0 r e) = (∑ d : Fin 768, v0 (ix3 0 r d) * w (ix2 d e)) * tenth := by
  unfold k0_pay3 k0_pay1
  refine (shapeCast_ab_1ab_apply _ _ 0 r e).trans ?_
  refine congrArg (· * tenth) ?_
  refine (mm_proj_apply _ _ r e).trans ?_
  refine Finset.sum_congr rfl fun d _ => ?_
  refine congrArg₂ (· * ·) ?_ ?_
  · exact shapeCast_1ab_ab_apply v0 _ r d
  · exact congrFun (shapeCast_self w _) (ix2 d e)

/-- A value block: the rows against the transposed weights. -/
theorem pay_v_apply (v0 : Vec Ideal S1x1024x768 .f32) (w : Vec Ideal S768x768 .bf16) (r : Fin 1024) (e : Fin 768) :
    k0_pay4 (F := Ideal) v0 w (ix3 0 r e) = ∑ d : Fin 768, v0 (ix3 0 r d) * w (ix2 d e) := by
  unfold k0_pay4 k0_pay1
  refine (shapeCast_ab_1ab_apply _ _ 0 r e).trans ?_
  refine (mm_proj_apply _ _ r e).trans ?_
  refine Finset.sum_congr rfl fun d _ => ?_
  refine congrArg₂ (· * ·) ?_ ?_
  · exact shapeCast_1ab_ab_apply v0 _ r d
  · exact congrFun (shapeCast_self w _) (ix2 d e)

/-! ## The attention body -/

/-- The accumulator's reset value is zero everywhere. -/
theorem pay_zero_apply (i : S1024x768.Idx) : k1_pay1 (F := Ideal) i = 0 := by
  unfold k1_pay1
  refine (congrFun (shapeCast_self _ _) i).trans ?_
  exact Ideal.ofBits_zero_f32

/-- The scaled product of the query block's rows with the key block's rows, at (r, j), is the scaled score. -/
theorem sc_apply (q : Vec Ideal S1x1024x768 .bf16) (k : Vec Ideal S1x512x768 .bf16)
    (hq : S1x1024x768.ShapeCasts S1024x768) (hk : S1x512x768.ShapeCasts S512x768) (r : Fin 1024) (j : Fin 512) :
    matmul (φ₁ := .bf16) (φ₂ := .bf16) dot_S1024x768_S512x768_S1024x512_1_1_0_0_n_n none (shapeCast S1024x768 q hq) (shapeCast S512x768 k hk)
        (constant (F := Ideal) S1024x512 .f32 0x00000000#32) (ix2 r j) * tenth = sc q k r j := by
  unfold sc
  refine congrArg (· * tenth) ?_
  refine (mm_qk_apply _ _ r j).trans ?_
  refine Finset.sum_congr rfl fun e _ => ?_
  refine congrArg₂ (· * ·) ?_ ?_
  · exact shapeCast_1ab_ab_apply q _ r e
  · exact shapeCast_1ab_ab_apply k _ j e

/-- The accumulator's update: what it held plus, over the block's keys, the polynomial times the value. -/
theorem pay_acc_apply (q : Vec Ideal S1x1024x768 .bf16) (k v : Vec Ideal S1x512x768 .bf16) (acc : Vec Ideal S1024x768 .f32)
    (r : Fin 1024) (d : Fin 768) :
    k1_pay2 (F := Ideal) q k v acc (ix2 r d) = acc (ix2 r d) + ∑ j : Fin 512, pl q k r j * v (ix3 0 j d) := by
  unfold k1_pay2
  refine (congrFun (shapeCast_self _ _) (ix2 r d)).trans ?_
  refine congrArg (acc (ix2 r d) + ·) ?_
  refine (mm_av_apply _ _ r d).trans ?_
  refine Finset.sum_congr rfl fun j _ => ?_
  refine congrArg₂ (· * ·) ?_ ?_
  · exact congrArg (fun s : EReal => s * s + s) (sc_apply q k _ _ r j)
  · exact shapeCast_1ab_ab_apply v _ j d

/-- The output block: the accumulator against the transposed output weights, scaled. -/
theorem pay_out_apply (acc : Vec Ideal S1024x768 .f32) (w : Vec Ideal S768x768 .bf16) (r : Fin 1024) (e : Fin 768) :
    k1_pay3 (F := Ideal) acc w (ix3 0 r e) = (∑ d : Fin 768, acc (ix2 r d) * w (ix2 d e)) * tenth := by
  unfold k1_pay3
  refine (shapeCast_ab_1ab_apply _ _ 0 r e).trans ?_
  refine congrArg (· * tenth) ?_
  refine (mm_proj_apply _ _ r e).trans ?_
  refine Finset.sum_congr rfl fun d _ => ?_
  refine congrArg₂ (· * ·) rfl ?_
  exact congrFun (shapeCast_self w _) (ix2 d e)

end Cert.KernelIdeal.Pay

end
-- ==== Proof.Val0.lean ====
/-
  What the projection region leaves in its three result arrays.

  Point t of the 2 by 4 grid is batch t / 4 and row block t % 4. Its three output blocks are written back whole, the
  blocks tile the arrays, so each array ends as one function of its index: at (b, s, e) the row (b, s) of the input
  against row e of the weights (the region is handed the weights transposed), scaled for queries and keys.
-/
import proofs.«120198_j7679401525929_1_alg».proof.Proof.KI.Body0
import proofs.«120198_j7679401525929_1_alg».proof.Proof.Pay
import proofs.«120198_j7679401525929_1_alg».proof.Proof.Spec
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## Where the blocks sit -/

/-- The input's block index at point t: batch t / 4, row block t % 4, all the features. -/
theorem idx0_in : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)

/-- The three weight matrices are taken whole at every point. -/
theorem idx0_wt : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, _)

/-- The queries' block index at point t is the input's. -/
theorem idx0_q : ∀ t : Fin cfg0.N, win0_4.index t (0 : Fin 3) = t.val / 4 ∧ win0_4.index t (1 : Fin 3) = t.val % 4
    ∧ win0_4.index t (2 : Fin 3) = 0 :=
  (by decide +kernel : ∀ t : Fin grid0.N, _)

/-- The keys' block index at point t is the input's. -/
theorem idx0_k : ∀ t : Fin cfg0.N, win0_5.index t (0 : Fin 3) = t.val / 4 ∧ win0_5.index t (1 : Fin 3) = t.val % 4
    ∧ win0_5.index t (2 : Fin 3) = 0 :=
  (by decide +kernel : ∀ t : Fin grid0.N, _)

/-- The values' block index at point t is the input's. -/
theorem idx0_v : ∀ t : Fin cfg0.N, win0_6.index t (0 : Fin 3) = t.val / 4 ∧ win0_6.index t (1 : Fin 3) = t.val % 4
    ∧ win0_6.index t (2 : Fin 3) = 0 :=
  (by decide +kernel : ∀ t : Fin grid0.N, _)

/-- Row r, feature d of the input's block at point t is row (t % 4) * 1024 + r of batch t / 4 of the input array. -/
theorem in_blk0 (c : Dev nD) (t : Fin cfg0.N) (r : Fin 1024) (d : Fin 768) (b : Fin 2) (s : Fin 4096)
    (hb : b.val = t.val / 4) (hs : s.val = t.val % 4 * 1024 + r.val) :
    (iblk0 V c 0 t : Vec Ideal S1x1024x768 .f32) (ix3 0 r d) = (V c main_arg0 : S2x4096x768.Idx → EReal) (ix3 b s d) := by
  obtain ⟨e0, e1, e2⟩ := idx0_in t
  show V c main_arg0 (((cfg0.win 0).blk t).view.emb (ix3 0 r d)) = _
  refine congrArg _ (funext fun a => Fin.ext ?_)
  match a with
  | ⟨0, _⟩ => show win0_0.index t (0 : Fin 3) * 1 + 1 * 0 = b.val; omega
  | ⟨1, _⟩ => show win0_0.index t (1 : Fin 3) * 1024 + 1 * r.val = s.val; omega
  | ⟨2, _⟩ => show win0_0.index t (2 : Fin 3) * 768 + 1 * d.val = d.val; omega

/-- The query weights' block at any point is the whole matrix the region was handed. -/
theorem wt_blk0_q (c : Dev nD) (t : Fin cfg0.N) (d e : Fin 768) :
    (iblk0 V c 1 t : Vec Ideal S768x768 .bf16) (ix2 d e) = (V c main_v1 : S768x768.Idx → EReal) (ix2 d e) := by
  obtain ⟨⟨e0, e1⟩, -, -⟩ := idx0_wt t
  show V c main_v1 (((cfg0.win 1).blk t).view.emb (ix2 d e)) = _
  refine congrArg _ (funext fun a => Fin.ext ?_)
  match a with
  | ⟨0, _⟩ => show win0_1.index t (0 : Fin 2) * 768 + 1 * d.val = d.val; omega
  | ⟨1, _⟩ => show win0_1.index t (1 : Fin 2) * 768 + 1 * e.val = e.val; omega

/-- The key weights' block at any point is the whole matrix the region was handed. -/
theorem wt_blk0_k (c : Dev nD) (t : Fin cfg0.N) (d e : Fin 768) :
    (iblk0 V c 2 t : Vec Ideal S768x768 .bf16) (ix2 d e) = (V c main_v3 : S768x768.Idx → EReal) (ix2 d e) := by
  obtain ⟨-, ⟨e0, e1⟩, -⟩ := idx0_wt t
  show V c main_v3 (((cfg0.win 2).blk t).view.emb (ix2 d e)) = _
  refine congrArg _ (funext fun a => Fin.ext ?_)
  match a with
  | ⟨0, _⟩ => show win0_2.index t (0 : Fin 2) * 768 + 1 * d.val = d.val; omega
  | ⟨1, _⟩ => show win0_2.index t (1 : Fin 2) * 768 + 1 * e.val = e.val; omega

/-- The value weights' block at any point is the whole matrix the region was handed. -/
theorem wt_blk0_v (c : Dev nD) (t : Fin cfg0.N) (d e : Fin 768) :
    (iblk0 V c 3 t : Vec Ideal S768x768 .bf16) (ix2 d e) = (V c main_v5 : S768x768.Idx → EReal) (ix2 d e) := by
  obtain ⟨-, -, e0, e1⟩ := idx0_wt t
  show V c main_v5 (((cfg0.win 3).blk t).view.emb (ix2 d e)) = _
  refine congrArg _ (funext fun a => Fin.ext ?_)
  match a with
  | ⟨0, _⟩ => show win0_3.index t (0 : Fin 2) * 768 + 1 * d.val = d.val; omega
  | ⟨1, _⟩ => show win0_3.index t (1 : Fin 2) * 768 + 1 * e.val = e.val; omega

/-! ## One element of a block -/

/-- A query block's element (r, e), when row r of the input block is row (b, s) of the input and the weight block is the
    transposed query weights: the query at (b, s, e). -/
theorem proj_q_at (x : Sx.Idx → EReal) (Wq : Sw.Idx → EReal) (v0 : Vec Ideal S1x1024x768 .f32) (w : Vec Ideal S768x768 .bf16)
    (r : Fin 1024) (e : Fin 768) (b : Fin 2) (s : Fin 4096)
    (hv : ∀ d : Fin 768, v0 (ix3 0 r d) = x (ix3 b s d)) (hw : ∀ d : Fin 768, w (ix2 d e) = Wq (ix2 e d)) :
    k0_pay2 (F := Ideal) v0 w (ix3 0 r e) = Qarr x Wq (ix3 b s e) := by
  refine (Pay.pay_q_apply v0 w r e).trans ?_
  show _ = (∑ d : Fin 768, x (ix3 b s d) * Wq (ix2 e d)) * tenth
  refine congrArg (· * tenth) (Finset.sum_congr rfl fun d _ => ?_)
  rw [hv d, hw d]

/-- A key block's element (r, e), under the same two readings: the key at (b, s, e). -/
theorem proj_k_at (x : Sx.Idx → EReal) (Wk : Sw.Idx → EReal) (v0 : Vec Ideal S1x1024x768 .f32) (w : Vec Ideal S768x768 .bf16)
    (r : Fin 1024) (e : Fin 768) (b : Fin 2) (s : Fin 4096)
    (hv : ∀ d : Fin 768, v0 (ix3 0 r d) = x (ix3 b s d)) (hw : ∀ d : Fin 768, w (ix2 d e) = Wk (ix2 e d)) :
    k0_pay3 (F := Ideal) v0 w (ix3 0 r e) = Karr x Wk (ix3 b s e) := by
  refine (Pay.pay_k_apply v0 w r e).trans ?_
  show _ = (∑ d : Fin 768, x (ix3 b s d) * Wk (ix2 e d)) * tenth
  refine congrArg (· * tenth) (Finset.sum_congr rfl fun d _ => ?_)
  rw [hv d, hw d]

/-- A value block's element (r, e), under the same two readings: the value at (b, s, e), with no scaling. -/
theorem proj_v_at (x : Sx.Idx → EReal) (Wv : Sw.Idx → EReal) (v0 : Vec Ideal S1x1024x768 .f32) (w : Vec Ideal S768x768 .bf16)
    (r : Fin 1024) (e : Fin 768) (b : Fin 2) (s : Fin 4096)
    (hv : ∀ d : Fin 768, v0 (ix3 0 r d) = x (ix3 b s d)) (hw : ∀ d : Fin 768, w (ix2 d e) = Wv (ix2 e d)) :
    k0_pay4 (F := Ideal) v0 w (ix3 0 r e) = Varr x Wv (ix3 b s e) := by
  refine (Pay.pay_v_apply v0 w r e).trans ?_
  show _ = ∑ d : Fin 768, x (ix3 b s d) * Wv (ix2 e d)
  refine Finset.sum_congr rfl fun d _ => ?_
  rw [hv d, hw d]

/-! ## The queries -/

/-- Element (r, e) of the queries' block at point t sits at row (t % 4) * 1024 + r of batch t / 4 of the array. -/
theorem emb0_q (t : Fin cfg0.N) (r : Fin 1024) (e : Fin 768) (b : Fin 2) (s : Fin 4096)
    (hb : b.val = t.val / 4) (hs : s.val = t.val % 4 * 1024 + r.val) :
    (((cfg0.win 4).blk t).view.emb (ix3 0 r e) : S2x4096x768.Idx) = ix3 b s e := by
  obtain ⟨e0, e1, e2⟩ := idx0_q t
  refine funext fun a => Fin.ext ?_
  match a with
  | ⟨0, _⟩ => show win0_4.index t (0 : Fin 3) * 1 + 1 * 0 = b.val; omega
  | ⟨1, _⟩ => show win0_4.index t (1 : Fin 3) * 1024 + 1 * r.val = s.val; omega
  | ⟨2, _⟩ => show win0_4.index t (2 : Fin 3) * 768 + 1 * e.val = e.val; omega

/-- What point t writes back to the queries' array is that array's block of the queries. -/
theorem flushed0_q (c : Dev nD) (x : Sx.Idx → EReal) (Wq : Sw.Idx → EReal)
    (hx : (V c main_arg0 : S2x4096x768.Idx → EReal) = x)
    (hw : ∀ d e : Fin 768, (V c main_v1 : S768x768.Idx → EReal) (ix2 d e) = Wq (ix2 e d)) (t : Fin cfg0.N) :
    (dat0 V c).flushed 4 t = ((cfg0.win 4).blk t).view.read (Elt Ideal) (Qarr x Wq) := by
  have hN : cfg0.N = 8 := N_0
  have ht : t.val < 8 := hN ▸ t.isLt
  show (cfg0.win 4).cut (grid0.coords t) ((dat0 V c).after 4 t) = _
  rw [after0_4]
  refine funext fun (j : S1x1024x768.Idx) => ?_
  obtain ⟨a, r, e, rfl⟩ : ∃ (a : Fin 1) (r : Fin 1024) (e : Fin 768), j = ix3 a r e := ⟨j 0, j 1, j 2, eq_ix3 j⟩
  obtain rfl : a = 0 := Subsingleton.elim _ _
  show k0_pay2 (F := Ideal) (iblk0 V c 0 t) (iblk0 V c 1 t) (ix3 0 r e) = Qarr x Wq (((cfg0.win 4).blk t).view.emb (ix3 0 r e))
  have hb : t.val / 4 < 2 := by omega
  have hs : t.val % 4 * 1024 + r.val < 4096 := by have := r.isLt; omega
  rw [emb0_q t r e ⟨t.val / 4, hb⟩ ⟨t.val % 4 * 1024 + r.val, hs⟩ rfl rfl]
  refine proj_q_at x Wq _ _ r e _ _ (fun d => ?_) (fun d => ?_)
  · rw [in_blk0 V c t r d ⟨t.val / 4, hb⟩ ⟨t.val % 4 * 1024 + r.val, hs⟩ rfl rfl, hx]
  · rw [wt_blk0_q V c t d e, hw d e]

/-- An index of the queries' array is in point t's block iff each coordinate is in the block's range on its axis. -/
theorem mem_blk0_q (t : Fin cfg0.N) (i : S2x4096x768.Idx) :
    i ∈ ((cfg0.win 4).blk t).view.set ↔ ∀ a : Fin 3, win0_4.index t a * S1x1024x768.size a ≤ (i a).val ∧ (i a).val < win0_4.index t a * S1x1024x768.size a + S1x1024x768.size a := by
  show i ∈ ((View.whole main_v8_0).slice (win0_4.rect t)).set ↔ _
  rw [View.set_slice_whole, Rect.mem_set_unit]
  exact Iff.rfl

/-- Row s of batch b of the queries' array is in the block of point b * 4 + s / 1024. -/
theorem cover0_q (i : S2x4096x768.Idx) : ∃ t : Fin cfg0.N, (cfg0.win 4).flush t = true ∧ i ∈ ((cfg0.win 4).blk t).view.set := by
  have hN : cfg0.N = 8 := N_0
  have h0 : (i 0).val < 2 := (i 0).isLt
  have h1 : (i 1).val < 4096 := (i 1).isLt
  have h2 : (i 2).val < 768 := (i 2).isLt
  have hlt : (i 0).val * 4 + (i 1).val / 1024 < cfg0.N :=
    lt_of_lt_of_eq (by omega : (i 0).val * 4 + (i 1).val / 1024 < 8) hN.symm
  refine ⟨⟨(i 0).val * 4 + (i 1).val / 1024, hlt⟩, flush0_4 _, ?_⟩
  rw [mem_blk0_q]
  obtain ⟨e0, e1, e2⟩ := idx0_q ⟨(i 0).val * 4 + (i 1).val / 1024, hlt⟩
  have e0' : win0_4.index ⟨(i 0).val * 4 + (i 1).val / 1024, hlt⟩ (0 : Fin 3) = ((i 0).val * 4 + (i 1).val / 1024) / 4 := e0
  have e1' : win0_4.index ⟨(i 0).val * 4 + (i 1).val / 1024, hlt⟩ (1 : Fin 3) = ((i 0).val * 4 + (i 1).val / 1024) % 4 := e1
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 1024 ≤ (i 1).val ∧ (i 1).val < win0_4.index _ (1 : Fin 3) * 1024 + 1024; omega
  | ⟨2, _⟩ => show win0_4.index _ (2 : Fin 3) * 768 ≤ (i 2).val ∧ (i 2).val < win0_4.index _ (2 : Fin 3) * 768 + 768; omega

/-- The queries' array after the region, given the input array and the transposed query weights it is entered with. -/
theorem arr0_q (c : Dev nD) (x : Sx.Idx → EReal) (Wq : Sw.Idx → EReal)
    (hx : (V c main_arg0 : S2x4096x768.Idx → EReal) = x)
    (hw : ∀ d e : Fin 768, (V c main_v1 : S768x768.Idx → EReal) (ix2 d e) = Wq (ix2 e d)) :
    ((dat0 V c).arrAt 4 cfg0.N : S2x4096x768.Idx → EReal) = Qarr x Wq :=
  (dat0 V c).arrAt_eq_of_cover 4 (Qarr x Wq) (fun t _ => flushed0_q V c x Wq hx hw t) cover0_q

/-! ## The keys -/

/-- Element (r, e) of the keys' block at point t sits at row (t % 4) * 1024 + r of batch t / 4 of the array. -/
theorem emb0_k (t : Fin cfg0.N) (r : Fin 1024) (e : Fin 768) (b : Fin 2) (s : Fin 4096)
    (hb : b.val = t.val / 4) (hs : s.val = t.val % 4 * 1024 + r.val) :
    (((cfg0.win 5).blk t).view.emb (ix3 0 r e) : S2x4096x768.Idx) = ix3 b s e := by
  obtain ⟨e0, e1, e2⟩ := idx0_k t
  refine funext fun a => Fin.ext ?_
  match a with
  | ⟨0, _⟩ => show win0_5.index t (0 : Fin 3) * 1 + 1 * 0 = b.val; omega
  | ⟨1, _⟩ => show win0_5.index t (1 : Fin 3) * 1024 + 1 * r.val = s.val; omega
  | ⟨2, _⟩ => show win0_5.index t (2 : Fin 3) * 768 + 1 * e.val = e.val; omega

/-- What point t writes back to the keys' array is that array's block of the keys. -/
theorem flushed0_k (c : Dev nD) (x : Sx.Idx → EReal) (Wk : Sw.Idx → EReal)
    (hx : (V c main_arg0 : S2x4096x768.Idx → EReal) = x)
    (hw : ∀ d e : Fin 768, (V c main_v3 : S768x768.Idx → EReal) (ix2 d e) = Wk (ix2 e d)) (t : Fin cfg0.N) :
    (dat0 V c).flushed 5 t = ((cfg0.win 5).blk t).view.read (Elt Ideal) (Karr x Wk) := by
  have hN : cfg0.N = 8 := N_0
  have ht : t.val < 8 := hN ▸ t.isLt
  show (cfg0.win 5).cut (grid0.coords t) ((dat0 V c).after 5 t) = _
  rw [after0_5]
  refine funext fun (j : S1x1024x768.Idx) => ?_
  obtain ⟨a, r, e, rfl⟩ : ∃ (a : Fin 1) (r : Fin 1024) (e : Fin 768), j = ix3 a r e := ⟨j 0, j 1, j 2, eq_ix3 j⟩
  obtain rfl : a = 0 := Subsingleton.elim _ _
  show k0_pay3 (F := Ideal) (iblk0 V c 0 t) (iblk0 V c 2 t) (ix3 0 r e) = Karr x Wk (((cfg0.win 5).blk t).view.emb (ix3 0 r e))
  have hb : t.val / 4 < 2 := by omega
  have hs : t.val % 4 * 1024 + r.val < 4096 := by have := r.isLt; omega
  rw [emb0_k t r e ⟨t.val / 4, hb⟩ ⟨t.val % 4 * 1024 + r.val, hs⟩ rfl rfl]
  refine proj_k_at x Wk _ _ r e _ _ (fun d => ?_) (fun d => ?_)
  · rw [in_blk0 V c t r d ⟨t.val / 4, hb⟩ ⟨t.val % 4 * 1024 + r.val, hs⟩ rfl rfl, hx]
  · rw [wt_blk0_k V c t d e, hw d e]

/-- An index of the keys' array is in point t's block iff each coordinate is in the block's range on its axis. -/
theorem mem_blk0_k (t : Fin cfg0.N) (i : S2x4096x768.Idx) :
    i ∈ ((cfg0.win 5).blk t).view.set ↔ ∀ a : Fin 3, win0_5.index t a * S1x1024x768.size a ≤ (i a).val ∧ (i a).val < win0_5.index t a * S1x1024x768.size a + S1x1024x768.size a := by
  show i ∈ ((View.whole main_v8_1).slice (win0_5.rect t)).set ↔ _
  rw [View.set_slice_whole, Rect.mem_set_unit]
  exact Iff.rfl

/-- Row s of batch b of the keys' array is in the block of point b * 4 + s / 1024. -/
theorem cover0_k (i : S2x4096x768.Idx) : ∃ t : Fin cfg0.N, (cfg0.win 5).flush t = true ∧ i ∈ ((cfg0.win 5).blk t).view.set := by
  have hN : cfg0.N = 8 := N_0
  have h0 : (i 0).val < 2 := (i 0).isLt
  have h1 : (i 1).val < 4096 := (i 1).isLt
  have h2 : (i 2).val < 768 := (i 2).isLt
  have hlt : (i 0).val * 4 + (i 1).val / 1024 < cfg0.N :=
    lt_of_lt_of_eq (by omega : (i 0).val * 4 + (i 1).val / 1024 < 8) hN.symm
  refine ⟨⟨(i 0).val * 4 + (i 1).val / 1024, hlt⟩, flush0_5 _, ?_⟩
  rw [mem_blk0_k]
  obtain ⟨e0, e1, e2⟩ := idx0_k ⟨(i 0).val * 4 + (i 1).val / 1024, hlt⟩
  have e0' : win0_5.index ⟨(i 0).val * 4 + (i 1).val / 1024, hlt⟩ (0 : Fin 3) = ((i 0).val * 4 + (i 1).val / 1024) / 4 := e0
  have e1' : win0_5.index ⟨(i 0).val * 4 + (i 1).val / 1024, hlt⟩ (1 : Fin 3) = ((i 0).val * 4 + (i 1).val / 1024) % 4 := e1
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 1024 ≤ (i 1).val ∧ (i 1).val < win0_5.index _ (1 : Fin 3) * 1024 + 1024; omega
  | ⟨2, _⟩ => show win0_5.index _ (2 : Fin 3) * 768 ≤ (i 2).val ∧ (i 2).val < win0_5.index _ (2 : Fin 3) * 768 + 768; omega

/-- The keys' array. -/
theorem arr0_k (c : Dev nD) (x : Sx.Idx → EReal) (Wk : Sw.Idx → EReal)
    (hx : (V c main_arg0 : S2x4096x768.Idx → EReal) = x)
    (hw : ∀ d e : Fin 768, (V c main_v3 : S768x768.Idx → EReal) (ix2 d e) = Wk (ix2 e d)) :
    ((dat0 V c).arrAt 5 cfg0.N : S2x4096x768.Idx → EReal) = Karr x Wk :=
  (dat0 V c).arrAt_eq_of_cover 5 (Karr x Wk) (fun t _ => flushed0_k V c x Wk hx hw t) cover0_k

/-! ## The values -/

/-- Element (r, e) of the values' block at point t sits at row (t % 4) * 1024 + r of batch t / 4 of the array. -/
theorem emb0_v (t : Fin cfg0.N) (r : Fin 1024) (e : Fin 768) (b : Fin 2) (s : Fin 4096)
    (hb : b.val = t.val / 4) (hs : s.val = t.val % 4 * 1024 + r.val) :
    (((cfg0.win 6).blk t).view.emb (ix3 0 r e) : S2x4096x768.Idx) = ix3 b s e := by
  obtain ⟨e0, e1, e2⟩ := idx0_v t
  refine funext fun a => Fin.ext ?_
  match a with
  | ⟨0, _⟩ => show win0_6.index t (0 : Fin 3) * 1 + 1 * 0 = b.val; omega
  | ⟨1, _⟩ => show win0_6.index t (1 : Fin 3) * 1024 + 1 * r.val = s.val; omega
  | ⟨2, _⟩ => show win0_6.index t (2 : Fin 3) * 768 + 1 * e.val = e.val; omega

/-- What point t writes back to the values' array is that array's block of the values. -/
theorem flushed0_v (c : Dev nD) (x : Sx.Idx → EReal) (Wv : Sw.Idx → EReal)
    (hx : (V c main_arg0 : S2x4096x768.Idx → EReal) = x)
    (hw : ∀ d e : Fin 768, (V c main_v5 : S768x768.Idx → EReal) (ix2 d e) = Wv (ix2 e d)) (t : Fin cfg0.N) :
    (dat0 V c).flushed 6 t = ((cfg0.win 6).blk t).view.read (Elt Ideal) (Varr x Wv) := by
  have hN : cfg0.N = 8 := N_0
  have ht : t.val < 8 := hN ▸ t.isLt
  show (cfg0.win 6).cut (grid0.coords t) ((dat0 V c).after 6 t) = _
  rw [after0_6]
  refine funext fun (j : S1x1024x768.Idx) => ?_
  obtain ⟨a, r, e, rfl⟩ : ∃ (a : Fin 1) (r : Fin 1024) (e : Fin 768), j = ix3 a r e := ⟨j 0, j 1, j 2, eq_ix3 j⟩
  obtain rfl : a = 0 := Subsingleton.elim _ _
  show k0_pay4 (F := Ideal) (iblk0 V c 0 t) (iblk0 V c 3 t) (ix3 0 r e) = Varr x Wv (((cfg0.win 6).blk t).view.emb (ix3 0 r e))
  have hb : t.val / 4 < 2 := by omega
  have hs : t.val % 4 * 1024 + r.val < 4096 := by have := r.isLt; omega
  rw [emb0_v t r e ⟨t.val / 4, hb⟩ ⟨t.val % 4 * 1024 + r.val, hs⟩ rfl rfl]
  refine proj_v_at x Wv _ _ r e _ _ (fun d => ?_) (fun d => ?_)
  · rw [in_blk0 V c t r d ⟨t.val / 4, hb⟩ ⟨t.val % 4 * 1024 + r.val, hs⟩ rfl rfl, hx]
  · rw [wt_blk0_v V c t d e, hw d e]

/-- An index of the values' array is in point t's block iff each coordinate is in the block's range on its axis. -/
theorem mem_blk0_v (t : Fin cfg0.N) (i : S2x4096x768.Idx) :
    i ∈ ((cfg0.win 6).blk t).view.set ↔ ∀ a : Fin 3, win0_6.index t a * S1x1024x768.size a ≤ (i a).val ∧ (i a).val < win0_6.index t a * S1x1024x768.size a + S1x1024x768.size a := by
  show i ∈ ((View.whole main_v8_2).slice (win0_6.rect t)).set ↔ _
  rw [View.set_slice_whole, Rect.mem_set_unit]
  exact Iff.rfl

/-- Row s of batch b of the values' array is in the block of point b * 4 + s / 1024. -/
theorem cover0_v (i : S2x4096x768.Idx) : ∃ t : Fin cfg0.N, (cfg0.win 6).flush t = true ∧ i ∈ ((cfg0.win 6).blk t).view.set := by
  have hN : cfg0.N = 8 := N_0
  have h0 : (i 0).val < 2 := (i 0).isLt
  have h1 : (i 1).val < 4096 := (i 1).isLt
  have h2 : (i 2).val < 768 := (i 2).isLt
  have hlt : (i 0).val * 4 + (i 1).val / 1024 < cfg0.N :=
    lt_of_lt_of_eq (by omega : (i 0).val * 4 + (i 1).val / 1024 < 8) hN.symm
  refine ⟨⟨(i 0).val * 4 + (i 1).val / 1024, hlt⟩, flush0_6 _, ?_⟩
  rw [mem_blk0_v]
  obtain ⟨e0, e1, e2⟩ := idx0_v ⟨(i 0).val * 4 + (i 1).val / 1024, hlt⟩
  have e0' : win0_6.index ⟨(i 0).val * 4 + (i 1).val / 1024, hlt⟩ (0 : Fin 3) = ((i 0).val * 4 + (i 1).val / 1024) / 4 := e0
  have e1' : win0_6.index ⟨(i 0).val * 4 + (i 1).val / 1024, hlt⟩ (1 : Fin 3) = ((i 0).val * 4 + (i 1).val / 1024) % 4 := e1
  intro a
  match a with
  | ⟨0, _⟩ => show win0_6.index _ (0 : Fin 3) * 1 ≤ (i 0).val ∧ (i 0).val < win0_6.index _ (0 : Fin 3) * 1 + 1; omega
  | ⟨1, _⟩ => show win0_6.index _ (1 : Fin 3) * 1024 ≤ (i 1).val ∧ (i 1).val < win0_6.index _ (1 : Fin 3) * 1024 + 1024; omega
  | ⟨2, _⟩ => show win0_6.index _ (2 : Fin 3) * 768 ≤ (i 2).val ∧ (i 2).val < win0_6.index _ (2 : Fin 3) * 768 + 768; omega

/-- The values' array. -/
theorem arr0_v (c : Dev nD) (x : Sx.Idx → EReal) (Wv : Sw.Idx → EReal)
    (hx : (V c main_arg0 : S2x4096x768.Idx → EReal) = x)
    (hw : ∀ d e : Fin 768, (V c main_v5 : S768x768.Idx → EReal) (ix2 d e) = Wv (ix2 e d)) :
    ((dat0 V c).arrAt 6 cfg0.N : S2x4096x768.Idx → EReal) = Varr x Wv :=
  (dat0 V c).arrAt_eq_of_cover 6 (Varr x Wv) (fun t _ => flushed0_v V c x Wv hx hw t) cover0_v

end Cert.KernelIdeal.Hand

end
-- ==== Proof.Val1a.lean ====
/-
  The attention region point by point.

  Point t of the 2 by 4 by 8 grid is batch t / 32, query block (t / 8) % 4 and key block t % 8. Its query block is rows
  [1024 qb, 1024 qb + 1024) of the batch's queries, its key and value blocks rows [512 kb, 512 kb + 512) of the batch's
  keys and values, its weight block the whole transposed output weights. After the body at the point the scratch
  holds, at (r, d), the running sum over the row's key blocks up to this one of each block's sum, over its 512 keys,
  of the polynomial of the scaled score times the value: zero, then one block sum added on the right per point.
-/
import proofs.«120198_j7679401525929_1_alg».proof.Proof.KI.Body1
import proofs.«120198_j7679401525929_1_alg».proof.Proof.Pay
import proofs.«120198_j7679401525929_1_alg».proof.Proof.Spec
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The batch of point t. -/
def ptB (t : Fin cfg1.N) : Fin 2 :=
  ⟨t.val / 32, by have h : t.val < 64 := lt_of_lt_of_eq t.isLt (show cfg1.N = 64 from N_1); omega⟩
/-- The query position of row r of point t's query block. -/
def ptRow (t : Fin cfg1.N) (r : Fin 1024) : Fin 4096 :=
  ⟨((t.val / 8) % 4) * 1024 + r.val, by have := r.isLt; omega⟩
/-- The key position of row j of point t's key block: key j of key block t % 8. -/
def ptKey (t : Fin cfg1.N) (j : Fin 512) : Fin 4096 :=
  ⟨(t.val % 8) * 512 + j.val, by have := j.isLt; omega⟩

/-- The printed index maps, decided over the grid: the query block of point t is block (t / 32, (t / 8) % 4, 0), -/
theorem idx1_0 : ∀ t : Fin cfg1.N, win1_0.index t (0 : Fin 3) = t.val / 32 ∧ win1_0.index t (1 : Fin 3) = (t.val / 8) % 4 ∧ win1_0.index t (2 : Fin 3) = 0 :=
  (by decide +kernel : ∀ t : Fin grid1.N, win1_0.index t (0 : Fin 3) = t.val / 32 ∧ win1_0.index t (1 : Fin 3) = (t.val / 8) % 4 ∧ win1_0.index t (2 : Fin 3) = 0)
/-- its key block and its value block are block (t / 32, t % 8, 0), -/
theorem idx1_1 : ∀ t : Fin cfg1.N, win1_1.index t (0 : Fin 3) = t.val / 32 ∧ win1_1.index t (1 : Fin 3) = t.val % 8 ∧ win1_1.index t (2 : Fin 3) = 0 :=
  (by decide +kernel : ∀ t : Fin grid1.N, win1_1.index t (0 : Fin 3) = t.val / 32 ∧ win1_1.index t (1 : Fin 3) = t.val % 8 ∧ win1_1.index t (2 : Fin 3) = 0)
theorem idx1_2 : ∀ t : Fin cfg1.N, win1_2.index t (0 : Fin 3) = t.val / 32 ∧ win1_2.index t (1 : Fin 3) = t.val % 8 ∧ win1_2.index t (2 : Fin 3) = 0 :=
  (by decide +kernel : ∀ t : Fin grid1.N, win1_2.index t (0 : Fin 3) = t.val / 32 ∧ win1_2.index t (1 : Fin 3) = t.val % 8 ∧ win1_2.index t (2 : Fin 3) = 0)
/-- and its weight block is block (0, 0). -/
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

theorem qblk_apply (c : Dev nD) (x : Sx.Idx → EReal) (Wq : Sw.Idx → EReal)
    (hq : (V c main_v8_0 : S2x4096x768.Idx → EReal) = Qarr x Wq) (t : Fin cfg1.N) (r : Fin 1024) (e : Fin 768) :
    (iblk1 V c 0 t : S1x1024x768.Idx → EReal) (ix3 0 r e) = qf x Wq (ptB t) (ptRow t r) e := by
  have hN : t.val < 64 := lt_of_lt_of_eq t.isLt (show cfg1.N = 64 from N_1)
  obtain ⟨e0, e1, e2⟩ := idx1_0 t
  unfold iblk1
  rw [View.read_apply]
  show V c main_v8_0 (((cfg1.win 0).blk t).view.emb (ix3 0 r e)) = _
  have key : (((cfg1.win 0).blk t).view.emb (ix3 0 r e) : S2x4096x768.Idx) = ix3 (ptB t) (ptRow t r) e := by
    funext a; apply Fin.ext
    match a with
    | ⟨0, _⟩ => show win1_0.index t (0 : Fin 3) * 1 + 1 * (0 : Fin 1).val = t.val / 32; rw [e0]; simp
    | ⟨1, _⟩ => show win1_0.index t (1 : Fin 3) * 1024 + 1 * r.val = ((t.val / 8) % 4) * 1024 + r.val; rw [e1]; omega
    | ⟨2, _⟩ => show win1_0.index t (2 : Fin 3) * 768 + 1 * e.val = e.val; rw [e2]; omega
  rw [key, hq]
  rfl

theorem kblk_apply (c : Dev nD) (x : Sx.Idx → EReal) (Wk : Sw.Idx → EReal)
    (hk : (V c main_v8_1 : S2x4096x768.Idx → EReal) = Karr x Wk) (t : Fin cfg1.N) (j : Fin 512) (e : Fin 768) :
    (iblk1 V c 1 t : S1x512x768.Idx → EReal) (ix3 0 j e) = kf x Wk (ptB t) (ptKey t j) e := by
  have hN : t.val < 64 := lt_of_lt_of_eq t.isLt (show cfg1.N = 64 from N_1)
  obtain ⟨e0, e1, e2⟩ := idx1_1 t
  unfold iblk1
  rw [View.read_apply]
  show V c main_v8_1 (((cfg1.win 1).blk t).view.emb (ix3 0 j e)) = _
  have key : (((cfg1.win 1).blk t).view.emb (ix3 0 j e) : S2x4096x768.Idx) = ix3 (ptB t) (ptKey t j) e := by
    funext a; apply Fin.ext
    match a with
    | ⟨0, _⟩ => show win1_1.index t (0 : Fin 3) * 1 + 1 * (0 : Fin 1).val = t.val / 32; rw [e0]; simp
    | ⟨1, _⟩ => show win1_1.index t (1 : Fin 3) * 512 + 1 * j.val = (t.val % 8) * 512 + j.val; rw [e1]; omega
    | ⟨2, _⟩ => show win1_1.index t (2 : Fin 3) * 768 + 1 * e.val = e.val; rw [e2]; omega
  rw [key, hk]
  rfl

theorem vblk_apply (c : Dev nD) (x : Sx.Idx → EReal) (Wv : Sw.Idx → EReal)
    (hv : (V c main_v8_2 : S2x4096x768.Idx → EReal) = Varr x Wv) (t : Fin cfg1.N) (j : Fin 512) (e : Fin 768) :
    (iblk1 V c 2 t : S1x512x768.Idx → EReal) (ix3 0 j e) = vf x Wv (ptB t) (ptKey t j) e := by
  have hN : t.val < 64 := lt_of_lt_of_eq t.isLt (show cfg1.N = 64 from N_1)
  obtain ⟨e0, e1, e2⟩ := idx1_2 t
  unfold iblk1
  rw [View.read_apply]
  show V c main_v8_2 (((cfg1.win 2).blk t).view.emb (ix3 0 j e)) = _
  have key : (((cfg1.win 2).blk t).view.emb (ix3 0 j e) : S2x4096x768.Idx) = ix3 (ptB t) (ptKey t j) e := by
    funext a; apply Fin.ext
    match a with
    | ⟨0, _⟩ => show win1_2.index t (0 : Fin 3) * 1 + 1 * (0 : Fin 1).val = t.val / 32; rw [e0]; simp
    | ⟨1, _⟩ => show win1_2.index t (1 : Fin 3) * 512 + 1 * j.val = (t.val % 8) * 512 + j.val; rw [e1]; omega
    | ⟨2, _⟩ => show win1_2.index t (2 : Fin 3) * 768 + 1 * e.val = e.val; rw [e2]; omega
  rw [key, hv]
  rfl

theorem wblk_apply (c : Dev nD) (Wo : Sw.Idx → EReal)
    (hw : ∀ d e : Fin 768, (V c main_v7 : S768x768.Idx → EReal) (ix2 d e) = Wo (ix2 e d)) (t : Fin cfg1.N) (d e : Fin 768) :
    (iblk1 V c 3 t : S768x768.Idx → EReal) (ix2 d e) = Wo (ix2 e d) := by
  obtain ⟨e0, e1⟩ := idx1_3 t
  unfold iblk1
  rw [View.read_apply]
  show V c main_v7 (((cfg1.win 3).blk t).view.emb (ix2 d e)) = _
  have key : (((cfg1.win 3).blk t).view.emb (ix2 d e) : S768x768.Idx) = ix2 d e := by
    funext a; apply Fin.ext
    match a with
    | ⟨0, _⟩ => show win1_3.index t (0 : Fin 2) * 768 + 1 * d.val = d.val; rw [e0]; omega
    | ⟨1, _⟩ => show win1_3.index t (1 : Fin 2) * 768 + 1 * e.val = e.val; rw [e1]; omega
  rw [key]
  exact hw d e

/-- One more key block: the running sum over n + 1 blocks is that over n plus block n's sum. -/
theorem partial8_succ_lt {M : Type*} [AddCommMonoid M] (g : Fin 8 → M) (n : ℕ) (h : n < 8) :
    partial8 g (n + 1) = partial8 g n + g ⟨n, h⟩ := by
  show partial8 g n + (if h : n < 8 then g ⟨n, h⟩ else 0) = _
  rw [dif_pos h]

/-- The polynomial of the scaled score of a query row against a key row, the rows being a query's and a key's. -/
theorem ptPl_eq (q : Vec Ideal S1x1024x768 .bf16) (k : Vec Ideal S1x512x768 .bf16)
    (x : Sx.Idx → EReal) (Wq Wk : Sw.Idx → EReal) (b : Fin 2) (qp kp : Fin 4096) (r : Fin 1024) (j : Fin 512)
    (hq : ∀ e : Fin 768, q (ix3 0 r e) = qf x Wq b qp e) (hk : ∀ e : Fin 768, k (ix3 0 j e) = kf x Wk b kp e) :
    Pay.pl q k r j = poly x Wq Wk b qp kp := by
  have hs : Pay.sc q k r j = score x Wq Wk b qp kp := by
    unfold Pay.sc score
    exact congrArg (· * tenth) (Finset.sum_congr rfl fun e _ => by rw [hq e, hk e])
  unfold Pay.pl poly
  rw [hs]

/-- A point's contribution at (r, d): the sum over its key block's 512 keys of each key's term. -/
theorem ptContrib_eq (q : Vec Ideal S1x1024x768 .bf16) (k v : Vec Ideal S1x512x768 .bf16)
    (x : Sx.Idx → EReal) (Wq Wk Wv : Sw.Idx → EReal) (b : Fin 2) (qp : Fin 4096) (kp : Fin 512 → Fin 4096)
    (r : Fin 1024) (d : Fin 768)
    (hq : ∀ e : Fin 768, q (ix3 0 r e) = qf x Wq b qp e)
    (hk : ∀ (j : Fin 512) (e : Fin 768), k (ix3 0 j e) = kf x Wk b (kp j) e)
    (hv : ∀ j : Fin 512, v (ix3 0 j d) = vf x Wv b (kp j) d) :
    ∑ j : Fin 512, Pay.pl q k r j * v (ix3 0 j d) = ∑ j : Fin 512, term x Wq Wk Wv b qp d (kp j) :=
  Finset.sum_congr rfl fun j _ => by
    rw [ptPl_eq q k x Wq Wk b qp (kp j) r j hq (hk j), hv j]
    rfl

/-- The key rows of point t's key block are the keys of key block t % 8. -/
theorem ptKey_eq (t : Fin cfg1.N) (n : ℕ) (hn : t.val % 8 = n) (h8 : n < 8) (j : Fin 512) : ptKey t j = keyAt ⟨n, h8⟩ j := by
  apply Fin.ext
  show (t.val % 8) * 512 + j.val = n * 512 + j.val
  rw [hn]

/-- Point t's contribution at (r, d), in the specification's terms. -/
theorem ptContrib_at (c : Dev nD) (x : Sx.Idx → EReal) (Wq Wk Wv : Sw.Idx → EReal)
    (hq : (V c main_v8_0 : S2x4096x768.Idx → EReal) = Qarr x Wq)
    (hk : (V c main_v8_1 : S2x4096x768.Idx → EReal) = Karr x Wk)
    (hv : (V c main_v8_2 : S2x4096x768.Idx → EReal) = Varr x Wv)
    (t : Fin cfg1.N) (r : Fin 1024) (d : Fin 768) (n : ℕ) (hn : t.val % 8 = n) (h8 : n < 8) :
    ∑ j : Fin 512, Pay.pl (iblk1 V c 0 t) (iblk1 V c 1 t) r j * (iblk1 V c 2 t : S1x512x768.Idx → EReal) (ix3 0 j d)
      = ∑ k : Fin 512, term x Wq Wk Wv (ptB t) (ptRow t r) d (keyAt ⟨n, h8⟩ k) :=
  ptContrib_eq (iblk1 V c 0 t) (iblk1 V c 1 t) (iblk1 V c 2 t) x Wq Wk Wv (ptB t) (ptRow t r) (fun j => keyAt ⟨n, h8⟩ j) r d
    (fun e => qblk_apply V c x Wq hq t r e)
    (fun j e => by rw [← ptKey_eq t n hn h8 j]; exact kblk_apply V c x Wk hk t j e)
    (fun j => by rw [← ptKey_eq t n hn h8 j]; exact vblk_apply V c x Wv hv t j d)

/-- The accumulator after the point at key block n of the row of batch b and query position qp: by induction on n. -/
theorem accAt_apply_aux (c : Dev nD) (x : Sx.Idx → EReal) (Wq Wk Wv : Sw.Idx → EReal)
    (hq : (V c main_v8_0 : S2x4096x768.Idx → EReal) = Qarr x Wq)
    (hk : (V c main_v8_1 : S2x4096x768.Idx → EReal) = Karr x Wk)
    (hv : (V c main_v8_2 : S2x4096x768.Idx → EReal) = Varr x Wv)
    (r : Fin 1024) (d : Fin 768) (b : Fin 2) (qp : Fin 4096) (n : ℕ) :
    ∀ t : Fin cfg1.N, t.val % 8 = n → ptB t = b → ptRow t r = qp →
      (accAt V c t.val t.isLt : S1024x768.Idx → EReal) (ix2 r d)
        = partial8 (fun j => ∑ k : Fin 512, term x Wq Wk Wv b qp d (keyAt j k)) (n + 1) := by
  induction n with
  | zero =>
    intro t hn hb hr
    rw [accAt_first V c t hn]
    refine (Pay.pay_acc_apply _ _ _ _ r d).trans ?_
    rw [Pay.pay_zero_apply, partial8_succ_lt _ 0 (by omega)]
    show 0 + _ = 0 + _
    rw [ptContrib_at V c x Wq Wk Wv hq hk hv t r d 0 hn (by omega), hb, hr]
  | succ n ih =>
    intro t hn hb hr
    have hN : t.val < 64 := lt_of_lt_of_eq t.isLt (show cfg1.N = 64 from N_1)
    have h0 : ¬ t.val % 8 = 0 := by omega
    have h8 : n + 1 < 8 := by omega
    have hlt : t.val - 1 < cfg1.N := Nat.lt_of_le_of_lt (Nat.sub_le _ _) t.isLt
    have ih' := ih ⟨t.val - 1, hlt⟩ (by show (t.val - 1) % 8 = n; omega)
      (by rw [← hb]; apply Fin.ext; show (t.val - 1) / 32 = t.val / 32; omega)
      (by rw [← hr]; apply Fin.ext; show ((t.val - 1) / 8 % 4) * 1024 + r.val = (t.val / 8 % 4) * 1024 + r.val; omega)
    rw [accAt_next V c t h0]
    refine (Pay.pay_acc_apply _ _ _ _ r d).trans ?_
    rw [partial8_succ_lt _ (n + 1) h8]
    refine congrArg₂ (· + ·) ih' ?_
    rw [ptContrib_at V c x Wq Wk Wv hq hk hv t r d (n + 1) hn h8, hb, hr]

/-- The accumulator after point t: the running sum over the row's first t % 8 + 1 key blocks. -/
theorem accAt_apply (c : Dev nD) (x : Sx.Idx → EReal) (Wq Wk Wv : Sw.Idx → EReal)
    (hq : (V c main_v8_0 : S2x4096x768.Idx → EReal) = Qarr x Wq)
    (hk : (V c main_v8_1 : S2x4096x768.Idx → EReal) = Karr x Wk)
    (hv : (V c main_v8_2 : S2x4096x768.Idx → EReal) = Varr x Wv)
    (t : Fin cfg1.N) (r : Fin 1024) (d : Fin 768) :
    (accAt V c t.val t.isLt : S1024x768.Idx → EReal) (ix2 r d)
      = partial8 (fun j => ∑ k : Fin 512, term x Wq Wk Wv (ptB t) (ptRow t r) d (keyAt j k)) (t.val % 8 + 1) :=
  accAt_apply_aux V c x Wq Wk Wv hq hk hv r d (ptB t) (ptRow t r) (t.val % 8) t rfl rfl rfl

end Cert.KernelIdeal.Hand

end
-- ==== Proof.Val1.lean ====
/-
  What the attention region leaves in the result array.

  Point t of the 2 by 4 by 8 grid is batch t / 32, query block (t / 8) % 4 and key block t % 8. Along a row of eight key
  blocks the scratch accumulates: after key block j it holds, at (r, d), the sum over the first j + 1 key blocks of the
  block sums of the polynomial times the value. At the last key block that is the sum over all 4096 keys, the
  specification's attention output; the body projects it through the transposed output weights, scales it and stores
  the block, and the blocks written back tile the result array.
-/
import proofs.«120198_j7679401525929_1_alg».proof.Proof.KI.Body1
import proofs.«120198_j7679401525929_1_alg».proof.Proof.Val1a
import proofs.«120198_j7679401525929_1_alg».proof.Proof.Pay
import proofs.«120198_j7679401525929_1_alg».proof.Proof.Spec
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The output window's block index over the grid: the batch, the query block, and zero along the features. -/
theorem out_index : ∀ t : Fin cfg1.N, win1_4.index t (0 : Fin 3) = t.val / 32 ∧ win1_4.index t (1 : Fin 3) = (t.val / 8) % 4
    ∧ win1_4.index t (2 : Fin 3) = 0 :=
  (by decide +kernel : ∀ t : Fin grid1.N, win1_4.index t (0 : Fin 3) = t.val / 32 ∧ win1_4.index t (1 : Fin 3) = (t.val / 8) % 4
    ∧ win1_4.index t (2 : Fin 3) = 0)

/-- What the last point of a row of key blocks leaves in the output block, entry by entry: the accumulator then holds
    the sum over all eight key blocks, which is the sum over all 4096 keys, the attention output; projected through
    the transposed output weights and scaled it is the specification's output at the row's query position. -/
theorem out_last (c : Dev nD) (x : Sx.Idx → EReal) (Wq Wk Wv Wo : Sw.Idx → EReal)
    (hq : (V c main_v8_0 : S2x4096x768.Idx → EReal) = Qarr x Wq)
    (hk : (V c main_v8_1 : S2x4096x768.Idx → EReal) = Karr x Wk)
    (hv : (V c main_v8_2 : S2x4096x768.Idx → EReal) = Varr x Wv)
    (hw : ∀ d e : Fin 768, (V c main_v7 : S768x768.Idx → EReal) (ix2 d e) = Wo (ix2 e d))
    (t : Fin cfg1.N) (h7 : t.val % 8 = 7) (r : Fin 1024) (e : Fin 768) :
    (k1_pay3 (F := Ideal) (accAt V c t.val t.isLt) (iblk1 V c 3 t) : S1x1024x768.Idx → EReal) (ix3 0 r e)
      = outc x Wq Wk Wv Wo (ptB t) (ptRow t r) e := by
  refine (Pay.pay_out_apply (accAt V c t.val t.isLt) (iblk1 V c 3 t) r e).trans ?_
  unfold outc
  refine congrArg (· * tenth) (Finset.sum_congr rfl fun d _ => ?_)
  rw [accAt_apply V c x Wq Wk Wv hq hk hv t r d, wblk_apply V c Wo hw t d e, h7]
  show partial8 _ 8 * _ = _
  rw [partial8_eight]
  unfold attn
  rw [sum_keys]

/-- What a last point of a row writes back is its block of the specification's result array: the block at block
    index (batch, query block, 0), whose entry (0, r, e) sits in the array at (batch, 1024 × query block + r, e). -/
theorem flushed_eq (c : Dev nD) (x : Sx.Idx → EReal) (Wq Wk Wv Wo : Sw.Idx → EReal)
    (hq : (V c main_v8_0 : S2x4096x768.Idx → EReal) = Qarr x Wq)
    (hk : (V c main_v8_1 : S2x4096x768.Idx → EReal) = Karr x Wk)
    (hv : (V c main_v8_2 : S2x4096x768.Idx → EReal) = Varr x Wv)
    (hw : ∀ d e : Fin 768, (V c main_v7 : S768x768.Idx → EReal) (ix2 d e) = Wo (ix2 e d))
    (t : Fin cfg1.N) (h7 : t.val % 8 = 7) :
    (dat1 V c).flushed 4 t = ((cfg1.win 4).blk t).view.read (Elt Ideal) (G x Wq Wk Wv Wo) := by
  show (cfg1.win 4).cut (grid1.coords t) ((dat1 V c).after 4 t) = _
  rw [after1_4]
  funext j
  obtain ⟨a, r, e, rfl⟩ : ∃ (a : Fin 1) (r : Fin 1024) (e : Fin 768), j = ix3 a r e := ⟨j 0, j 1, j 2, eq_ix3 j⟩
  obtain rfl : a = 0 := Subsingleton.elim _ _
  show (k1_pay3 (F := Ideal) (accAt V c t.val t.isLt) (iblk1 V c 3 t) : S1x1024x768.Idx → EReal) (ix3 0 r e)
    = G x Wq Wk Wv Wo (((cfg1.win 4).blk t).view.emb (ix3 0 r e))
  rw [out_last V c x Wq Wk Wv Wo hq hk hv hw t h7 r e]
  obtain ⟨i0, i1, i2⟩ := out_index t
  have hN : t.val < 64 := lt_of_lt_of_eq t.isLt (show cfg1.N = 64 from N_1)
  have hemb : ((cfg1.win 4).blk t).view.emb (ix3 (0 : Fin 1) r e) = (ix3 (ptB t) (ptRow t r) e : S2x4096x768.Idx) := by
    funext a; apply Fin.ext
    match a with
    | ⟨0, _⟩ => show win1_4.index t (0 : Fin 3) * 1 + 1 * 0 = t.val / 32; omega
    | ⟨1, _⟩ => show win1_4.index t (1 : Fin 3) * 1024 + 1 * r.val = ((t.val / 8) % 4) * 1024 + r.val; omega
    | ⟨2, _⟩ => show win1_4.index t (2 : Fin 3) * 768 + 1 * e.val = e.val; omega
  rw [hemb, G_ix3]

/-- An index of the result array is in point t's output block iff each coordinate is in the block's range on its axis. -/
theorem mem_blk (t : Fin cfg1.N) (i : S2x4096x768.Idx) :
    i ∈ ((cfg1.win 4).blk t).view.set
      ↔ ∀ a : Fin 3, win1_4.index t a * S1x1024x768.size a ≤ (i a).val ∧ (i a).val < win1_4.index t a * S1x1024x768.size a + S1x1024x768.size a := by
  show i ∈ ((View.whole main_v9).slice (win1_4.rect t)).set ↔ _
  rw [View.set_slice_whole, Rect.mem_set_unit]
  exact Iff.rfl

/-- The result array after the region, given the arrays of queries, keys and values and the transposed output weights
    it is entered with. -/
theorem arr1_out (c : Dev nD) (x : Sx.Idx → EReal) (Wq Wk Wv Wo : Sw.Idx → EReal)
    (hq : (V c main_v8_0 : S2x4096x768.Idx → EReal) = Qarr x Wq)
    (hk : (V c main_v8_1 : S2x4096x768.Idx → EReal) = Karr x Wk)
    (hv : (V c main_v8_2 : S2x4096x768.Idx → EReal) = Varr x Wv)
    (hw : ∀ d e : Fin 768, (V c main_v7 : S768x768.Idx → EReal) (ix2 d e) = Wo (ix2 e d)) :
    ((dat1 V c).arrAt 4 cfg1.N : S2x4096x768.Idx → EReal) = G x Wq Wk Wv Wo := by
  refine (dat1 V c).arrAt_eq_of_cover 4 (G x Wq Wk Wv Wo)
    (fun t hf => flushed_eq V c x Wq Wk Wv Wo hq hk hv hw t ((flush1_4 t).mp hf)) fun i => ?_
  -- Position q of batch b lies in the block written back at point 32 b + 8 (q / 1024) + 7, the last key block of its row.
  have hb : (i 0).val < 2 := (i 0).isLt
  have hp : (i 1).val < 4096 := (i 1).isLt
  have he : (i 2).val < 768 := (i 2).isLt
  have hN : cfg1.N = 64 := N_1
  have ht : (i 0).val * 32 + ((i 1).val / 1024) * 8 + 7 < cfg1.N := by rw [hN]; omega
  refine ⟨⟨(i 0).val * 32 + ((i 1).val / 1024) * 8 + 7, ht⟩, (flush1_4 _).mpr (by show ((i 0).val * 32 + ((i 1).val / 1024) * 8 + 7) % 8 = 7; omega), ?_⟩
  rw [mem_blk]
  obtain ⟨i0, i1, i2⟩ := out_index ⟨(i 0).val * 32 + ((i 1).val / 1024) * 8 + 7, ht⟩
  have j0 : win1_4.index ⟨(i 0).val * 32 + ((i 1).val / 1024) * 8 + 7, ht⟩ (0 : Fin 3) = ((i 0).val * 32 + ((i 1).val / 1024) * 8 + 7) / 32 := i0
  have j1 : win1_4.index ⟨(i 0).val * 32 + ((i 1).val / 1024) * 8 + 7, ht⟩ (1 : Fin 3) = (((i 0).val * 32 + ((i 1).val / 1024) * 8 + 7) / 8) % 4 := i1
  intro a
  match a with
  | ⟨0, _⟩ =>
    show win1_4.index _ (0 : Fin 3) * 1 ≤ (i 0).val ∧ (i 0).val < win1_4.index _ (0 : Fin 3) * 1 + 1
    omega
  | ⟨1, _⟩ =>
    show win1_4.index _ (1 : Fin 3) * 1024 ≤ (i 1).val ∧ (i 1).val < win1_4.index _ (1 : Fin 3) * 1024 + 1024
    omega
  | ⟨2, _⟩ =>
    show win1_4.index _ (2 : Fin 3) * 768 ≤ (i 2).val ∧ (i 2).val < win1_4.index _ (2 : Fin 3) * 768 + 768
    omega

end Cert.KernelIdeal.Hand

end
-- ==== Proof.KI.Value.lean ====
/-
  The idealized kernel's result array is the specification's.

  The host stretch hands the first region the input and the transposed weights; the first region leaves the arrays of
  queries, keys and values; nothing stands between the regions, so the second region is entered with those arrays and
  the transposed output weights, and leaves the specification's result array.
-/
import proofs.«120198_j7679401525929_1_alg».proof.Proof.KI.HostVals
import proofs.«120198_j7679401525929_1_alg».proof.Proof.Val0
import proofs.«120198_j7679401525929_1_alg».proof.Proof.Val1

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL.Sem

variable (m : (ℓ : Loc nD τ sig) → Buf (Elt Ideal) ℓ) (ρ : Dev nD → PrngReg)

theorem kernel_value (c : Dev nD) :
    ((dat1 (V2 m ρ) c).arrAt 4 cfg1.N : S2x4096x768.Idx → EReal)
      = G (m ((c : Thread nD τ).loc main_arg0)) (m ((c : Thread nD τ).loc main_arg1)) (m ((c : Thread nD τ).loc main_arg2))
          (m ((c : Thread nD τ).loc main_arg3)) (m ((c : Thread nD τ).loc main_arg4)) := by
  refine arr1_out (V2 m ρ) c _ _ _ _ _ ?_ ?_ ?_ ?_
  · exact (W2_arr m ρ c 4).trans (arr0_q (V1 m ρ) c _ _ (V1_arg0 m ρ c) (V1_v1 m ρ c))
  · exact (W2_arr m ρ c 5).trans (arr0_k (V1 m ρ) c _ _ (V1_arg0 m ρ c) (V1_v3 m ρ c))
  · exact (W2_arr m ρ c 6).trans (arr0_v (V1 m ρ) c _ _ (V1_arg0 m ρ c) (V1_v5 m ρ c))
  · intro d e
    exact (congrFun (W2_of_ne m ρ c main_v7 (by decide)) (ix2 d e)).trans (V1_v7 m ρ c d e)

end Cert.KernelIdeal.Hand

end
-- ==== Proof.RefIsG.lean ====
/-
  The reference computes the specification.

  The reference is twenty host operations: three projections (a contraction over the feature axis each, queries and
  keys then scaled by the literal one tenth), the batched scores (a contraction over the feature axis, scaled), their
  polynomial, the batched product with the values (a contraction over all 4096 keys), the output projection, scaled.
  Read one operation at a time at an index, that is the specification's formula term for term.
-/
import proofs.«120198_j7679401525929_1_alg».proof.Proof.Gen.ReferenceIdeal.Read
import proofs.«120198_j7679401525929_1_alg».proof.Proof.Spec

noncomputable section

open scoped BigOperators

namespace Cert.ReferenceIdeal.RefValue

open Cert.ReferenceIdeal Cert.ReferenceIdeal.Read Cert.Spec
open Idealize.ShloMosaic Idealize.ShloMosaic.ValueIdx

section Stages

variable (x0 : (⟨S2x4096x768, .f32⟩ : BufTy).Contents (Elt Ideal)) (x1 x2 x3 x4 : (⟨S768x768, .f32⟩ : BufTy).Contents (Elt Ideal))

/-! ## The four broadcasts of the literal: one tenth everywhere -/

theorem v1_at (i : S2x4096x768.Idx) : val_main_v1 (F := Ideal) i = tenth := by
  rw [val_main_v1_apply, val_main_cst_apply, Ideal.ofBits_def]; rfl

theorem v4_at (i : S2x4096x768.Idx) : val_main_v4 (F := Ideal) i = tenth := by
  rw [val_main_v4_apply, val_main_cst_0_apply, Ideal.ofBits_def]; rfl

theorem v8_at (i : S2x4096x4096.Idx) : val_main_v8 (F := Ideal) i = tenth := by
  rw [val_main_v8_apply, val_main_cst_1_apply, Ideal.ofBits_def]; rfl

theorem v14_at (i : S2x4096x768.Idx) : val_main_v14 (F := Ideal) i = tenth := by
  rw [val_main_v14_apply, val_main_cst_2_apply, Ideal.ofBits_def]; rfl

/-! ## The three projections: position (b, s) of the input against row e of a weight matrix -/

/-- The query projection before scaling. -/
theorem v0_at (b : Fin 2) (s : Fin 4096) (e : Fin 768) :
    val_main_v0 (F := Ideal) x0 x1 (ix3 b s e) = lin x0 x1 b s e := by
  refine (val_main_v0_apply x0 x1 (ix3 b s e)).trans ?_
  unfold lin
  refine Finset.sum_congr rfl fun d _ => ?_
  have hl : lidx_main_v0 (ix3 b s e) d = ix3 b s d := by
    funext a; match a with | ⟨0, _⟩ => rfl | ⟨1, _⟩ => rfl | ⟨2, _⟩ => rfl
  have hr : ridx_main_v0 (ix3 b s e) d = ix2 e d := by
    funext a; match a with | ⟨0, _⟩ => rfl | ⟨1, _⟩ => rfl
  rw [hl, hr]

/-- The key projection before scaling. -/
theorem v3_at (b : Fin 2) (s : Fin 4096) (e : Fin 768) :
    val_main_v3 (F := Ideal) x0 x2 (ix3 b s e) = lin x0 x2 b s e := by
  refine (val_main_v3_apply x0 x2 (ix3 b s e)).trans ?_
  unfold lin
  refine Finset.sum_congr rfl fun d _ => ?_
  have hl : lidx_main_v3 (ix3 b s e) d = ix3 b s d := by
    funext a; match a with | ⟨0, _⟩ => rfl | ⟨1, _⟩ => rfl | ⟨2, _⟩ => rfl
  have hr : ridx_main_v3 (ix3 b s e) d = ix2 e d := by
    funext a; match a with | ⟨0, _⟩ => rfl | ⟨1, _⟩ => rfl
  rw [hl, hr]

/-- The value projection. -/
theorem v6_at (b : Fin 2) (s : Fin 4096) (e : Fin 768) :
    val_main_v6 (F := Ideal) x0 x3 (ix3 b s e) = vf x0 x3 b s e := by
  refine (val_main_v6_apply x0 x3 (ix3 b s e)).trans ?_
  unfold vf lin
  refine Finset.sum_congr rfl fun d _ => ?_
  have hl : lidx_main_v6 (ix3 b s e) d = ix3 b s d := by
    funext a; match a with | ⟨0, _⟩ => rfl | ⟨1, _⟩ => rfl | ⟨2, _⟩ => rfl
  have hr : ridx_main_v6 (ix3 b s e) d = ix2 e d := by
    funext a; match a with | ⟨0, _⟩ => rfl | ⟨1, _⟩ => rfl
  rw [hl, hr]

/-- The scaled queries. -/
theorem v2_at (b : Fin 2) (s : Fin 4096) (e : Fin 768) :
    val_main_v2 (F := Ideal) x0 x1 (ix3 b s e) = qf x0 x1 b s e := by
  rw [val_main_v2_apply, v0_at, v1_at, Ideal.mulf_def]; rfl

/-- The scaled keys. -/
theorem v5_at (b : Fin 2) (s : Fin 4096) (e : Fin 768) :
    val_main_v5 (F := Ideal) x0 x2 (ix3 b s e) = kf x0 x2 b s e := by
  rw [val_main_v5_apply, v3_at, v4_at, Ideal.mulf_def]; rfl

/-! ## Scores and their polynomial -/

/-- The batched contraction of queries against keys over the feature axis. -/
theorem v7_at (b : Fin 2) (q k : Fin 4096) :
    val_main_v7 (F := Ideal) x0 x1 x2 (ix3 b q k) = ∑ d : Fin 768, qf x0 x1 b q d * kf x0 x2 b k d := by
  refine (val_main_v7_apply x0 x1 x2 (ix3 b q k)).trans ?_
  refine Finset.sum_congr rfl fun d _ => ?_
  have hl : lidx_main_v7 (ix3 b q k) d = ix3 b q d := by
    funext a; match a with | ⟨0, _⟩ => rfl | ⟨1, _⟩ => rfl | ⟨2, _⟩ => rfl
  have hr : ridx_main_v7 (ix3 b q k) d = ix3 b k d := by
    funext a; match a with | ⟨0, _⟩ => rfl | ⟨1, _⟩ => rfl | ⟨2, _⟩ => rfl
  rw [hl, hr, v2_at, v5_at]

/-- The scaled score. -/
theorem v9_at (b : Fin 2) (q k : Fin 4096) :
    val_main_v9 (F := Ideal) x0 x1 x2 (ix3 b q k) = score x0 x1 x2 b q k := by
  rw [val_main_v9_apply, v7_at, v8_at, Ideal.mulf_def]; rfl

/-- The polynomial of the score: its square plus itself. -/
theorem v11_at (b : Fin 2) (q k : Fin 4096) :
    val_main_v11 (F := Ideal) x0 x1 x2 (ix3 b q k) = poly x0 x1 x2 b q k := by
  rw [val_main_v11_apply, val_main_v10_apply, v9_at, Ideal.addf_def, Ideal.mulf_def]; rfl

/-! ## The product with the values, and the output projection -/

/-- The batched contraction of the polynomial against the values over all keys. -/
theorem v12_at (b : Fin 2) (q : Fin 4096) (d : Fin 768) :
    val_main_v12 (F := Ideal) x0 x1 x2 x3 (ix3 b q d) = attn x0 x1 x2 x3 b q d := by
  refine (val_main_v12_apply x0 x1 x2 x3 (ix3 b q d)).trans ?_
  unfold attn term
  refine Finset.sum_congr rfl fun k _ => ?_
  have hl : lidx_main_v12 (ix3 b q d) k = ix3 b q k := by
    funext a; match a with | ⟨0, _⟩ => rfl | ⟨1, _⟩ => rfl | ⟨2, _⟩ => rfl
  have hr : ridx_main_v12 (ix3 b q d) k = ix3 b k d := by
    funext a; match a with | ⟨0, _⟩ => rfl | ⟨1, _⟩ => rfl | ⟨2, _⟩ => rfl
  rw [hl, hr, v11_at, v6_at]

/-- The output projection before scaling. -/
theorem v13_at (b : Fin 2) (q : Fin 4096) (e : Fin 768) :
    val_main_v13 (F := Ideal) x0 x1 x2 x3 x4 (ix3 b q e) = ∑ d : Fin 768, attn x0 x1 x2 x3 b q d * x4 (ix2 e d) := by
  refine (val_main_v13_apply x0 x1 x2 x3 x4 (ix3 b q e)).trans ?_
  refine Finset.sum_congr rfl fun d _ => ?_
  have hl : lidx_main_v13 (ix3 b q e) d = ix3 b q d := by
    funext a; match a with | ⟨0, _⟩ => rfl | ⟨1, _⟩ => rfl | ⟨2, _⟩ => rfl
  have hr : ridx_main_v13 (ix3 b q e) d = ix2 e d := by
    funext a; match a with | ⟨0, _⟩ => rfl | ⟨1, _⟩ => rfl
  rw [hl, hr, v12_at]

/-- The last stage at (b, q, e) is the specification's output there. -/
theorem v15_at (b : Fin 2) (q : Fin 4096) (e : Fin 768) :
    val_main_v15 (F := Ideal) x0 x1 x2 x3 x4 (ix3 b q e) = outc x0 x1 x2 x3 x4 b q e := by
  rw [val_main_v15_apply, v13_at, v14_at, Ideal.mulf_def]; rfl

end Stages

/-- The reference's last stage, as a function of the five argument arrays, is the specification's result array. -/
theorem ref_is_G (x0 : (⟨S2x4096x768, .f32⟩ : BufTy).Contents (Elt Ideal)) (x1 x2 x3 x4 : (⟨S768x768, .f32⟩ : BufTy).Contents (Elt Ideal)) :
    val_main_v15 (F := Ideal) x0 x1 x2 x3 x4 = G x0 x1 x2 x3 x4 := by
  funext i
  obtain ⟨b, q, e, rfl⟩ : ∃ (b : Fin 2) (q : Fin 4096) (e : Fin 768), i = ix3 b q e := ⟨i 0, i 1, i 2, eq_ix3 i⟩
  rw [v15_at, G_ix3]

end Cert.ReferenceIdeal.RefValue

end
-- ==== Proof.lean ====
/-
  The certificate of a polynomial-attention kernel against its reference.

  The kernel is two regions. The first projects 1024-row blocks of the input through the transposed query, key and
  value weights (queries and keys scaled by one tenth). The second walks, for each batch and each block of 1024
  queries, the eight blocks of 512 keys: it adds to a scratch accumulator the polynomial s s + s of the scaled scores
  times the values, and at the last key block projects the accumulator through the transposed output weights,
  scales it and stores the block. The reference does the same with one contraction over all 4096 keys.

  Frames (both instances of the kernel): every unscoped buffer is held whole between the program's three items at a
  known valuation; each region's record is proved from its body's triple, the second region's invariant carrying the
  accumulator from point to point. The reference's frame is its run with the result dropped.
  Values (at the ideal instance): both programs end at one function of the arguments, the specification of
  Proof/Spec.lean. The only law between them is that a sum over 4096 keys is eight sums over 512, which holds in any
  commutative monoid, so the precondition is never opened. The ideal pass rewrote nothing, so there is nothing to
  preserve.
-/
import proofs.«120198_j7679401525929_1_alg».proof.Defs
import proofs.«120198_j7679401525929_1_alg».proof.Proof.Gen.Kernel
import proofs.«120198_j7679401525929_1_alg».proof.Proof.Gen.Kernel.Skeleton
import proofs.«120198_j7679401525929_1_alg».proof.Proof.Gen.Kernel.Launch
import proofs.«120198_j7679401525929_1_alg».proof.Proof.Gen.Kernel.Regions
import proofs.«120198_j7679401525929_1_alg».proof.Proof.Gen.Kernel.Points
import proofs.«120198_j7679401525929_1_alg».proof.Proof.Gen.KernelIdeal
import proofs.«120198_j7679401525929_1_alg».proof.Proof.Gen.KernelIdeal.Skeleton
import proofs.«120198_j7679401525929_1_alg».proof.Proof.Gen.KernelIdeal.Launch
import proofs.«120198_j7679401525929_1_alg».proof.Proof.Gen.KernelIdeal.Regions
import proofs.«120198_j7679401525929_1_alg».proof.Proof.Gen.KernelIdeal.Points
import proofs.«120198_j7679401525929_1_alg».proof.Proof.Gen.ReferenceIdeal
import proofs.«120198_j7679401525929_1_alg».proof.Proof.Gen.ReferenceIdeal.Run
import proofs.«120198_j7679401525929_1_alg».proof.Proof.Gen.ReferenceIdeal.Read
import proofs.«120198_j7679401525929_1_alg».proof.Proof.Gen.Pre_finite_inputs
import proofs.«120198_j7679401525929_1_alg».proof.Proof.K.Run
import proofs.«120198_j7679401525929_1_alg».proof.Proof.KI.Run
import proofs.«120198_j7679401525929_1_alg».proof.Proof.KI.Value
import proofs.«120198_j7679401525929_1_alg».proof.Proof.RefIsG
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel :=
  fun m ρ _ => Cert.Kernel.Hand.frame m ρ

/-- The idealized kernel runs and leaves its arguments unchanged. -/
theorem frame_ki : Cert.frame_KernelIdeal :=
  fun m ρ _ => Cert.KernelIdeal.Hand.frame m ρ

/-- The reference runs and leaves its arguments unchanged: its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- From memories agreeing on the arguments both programs end at the specification's result array. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Hand.kernel_value m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, Cert.ReferenceIdeal.RefValue.ref_is_G,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
